-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x4096 : Shape := ⟨2, ![128, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S4096x128 .f32) (main_arg1 : FVec F S4096x4096 .f32) (main_arg2 : FVec F S128x4096 .f32) (main_arg3 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Kernel.lean ====
abbrev S4096x128 : Shape := ⟨2, ![4096, 128]⟩
abbrev S4096x4096 : Shape := ⟨2, ![4096, 4096]⟩
abbrev S128x4096 : Shape := ⟨2, ![128, 4096]⟩
abbrev S4096x256 : Shape := ⟨2, ![4096, 256]⟩
abbrev S512x4096 : Shape := ⟨2, ![512, 4096]⟩
abbrev S512x256 : Shape := ⟨2, ![512, 256]⟩
abbrev S512x128 : Shape := ⟨2, ![512, 128]⟩
abbrev S128x128 : Shape := ⟨2, ![128, 128]⟩

abbrev nBuf : Space → Nat
  | .hbm => 9
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x4096, .f32⟩
  | .hbm, ⟨3, _⟩ => ⟨S4096x128, .f32⟩
  | .hbm, ⟨4, _⟩ => ⟨S4096x256, .f32⟩
  | .hbm, ⟨5, _⟩ => ⟨S4096x256, .bf16⟩
  | .hbm, ⟨6, _⟩ => ⟨S128x4096, .bf16⟩
  | .hbm, ⟨7, _⟩ => ⟨S4096x4096, .f32⟩
  | .hbm, ⟨8, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S128x4096, .bf16⟩
  | .local _ .vmem, ⟨4, _⟩ => ⟨S512x4096, .f32⟩
  | .local _ .vmem, ⟨5, _⟩ => ⟨S512x4096, .f32⟩
  | .local _ .vmem, ⟨6, _⟩ => ⟨S4096x128, .f32⟩
  | .local _ .vmem, ⟨7, _⟩ => ⟨S4096x256, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_3 : Index := 0#32
  ![v5.toNat, 0]
def k0_cond1 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32 : BitVec 32 := 0#32
  let v16 : BitVec 1 := Scalar.cmpi .ne v15 c0_i32
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  concatenates_S4096x128_S4096x128_S4096x256_d1 : Shape.Concatenates [S4096x128, S4096x128] S4096x256 1
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  h_S512x256 : 0 < S512x256.numel
  shapeCasts_S512x256_S512x256 : S512x256.ShapeCasts S512x256
  slices_S512x256_o0_0_S512x128 : S512x256.Slices ![0, 0] S512x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x256_S4096x128_0_0 : ∀ a, (![0, 0] : Fin 2 → Nat) a + S4096x128.size a ≤ S4096x256.size a
  h_S4096x128 : 0 < S4096x128.numel
  inb_S4096x256_S4096x128_0_128 : ∀ a, (![0, 128] : Fin 2 → Nat) a + S4096x128.size a ≤ S4096x256.size a
  inb_S4096x128_S4096x128_0_0 : ∀ a, (![0, 0] : Fin 2 → Nat) a + S4096x128.size a ≤ S4096x128.size a
  dot_S512x4096_S4096x256_S512x256_1_0_0_1_n_n_wf : DotDims.WF S512x4096 S4096x256 S512x256 [1] [0] [0] [1] [] []
  dot_S512x128_S128x4096_S512x4096_1_0_0_1_n_n_wf : DotDims.WF S512x128 S128x4096 S512x4096 [1] [0] [0] [1] [] []
  dot_S128x4096_S4096x128_S128x128_1_0_0_1_n_n_wf : DotDims.WF S128x4096 S4096x128 S128x128 [1] [0] [0] [1] [] []
  dot_S4096x128_S128x128_S4096x128_1_0_0_1_n_n_wf : DotDims.WF S4096x128 S128x128 S4096x128 [1] [0] [0] [1] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x4096 : Shape := ⟨2, ![128, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x4096, .f32⟩
  | .hbm, ⟨3, _⟩ => ⟨S4096x128, .f32⟩
  | .hbm, ⟨4, _⟩ => ⟨S4096x4096, .f32⟩
  | .hbm, ⟨5, _⟩ => ⟨S4096x4096, .f32⟩
  | .hbm, ⟨6, _⟩ => ⟨S4096x128, .f32⟩
  | .hbm, ⟨7, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S4096x128_S128x4096_S4096x4096_1_0_0_1_n_n_wf : DotDims.WF S4096x128 S128x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KRunBits.lean ====
/-
  The kernel body run once, in each of its two cases, on whole staging buffers.

  At a grid point the body multiplies the point's 512 rows of the first operand by the whole second operand,
  keeps the 512 x 256 product in rows [512 i, 512 i + 512) of the scratch, and stores that product's left half
  times the third operand as the point's block of the first result. At the last point only, it then reads the
  two column halves of the whole scratch (every row block by then written, the last by this very point) and stores
  left half times (third operand times right half) as the second result.

  Each run hands back, for every buffer the body stores into, the list of stores it made (newest first); the
  scratch is handed back as exactly those stores written over what the point found in it, so that what an
  earlier point stored is still there for the last point to read.
-/
import proofs.«150679_g65627100283412_cont_sun_m_691_11_alg».proof.Proof.Gen.Kernel.Frame
import proofs.«150679_g65627100283412_cont_sun_m_691_11_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: it holds at the last grid point only. -/
abbrev lastPt (i : grid0.Coords) : Prop := k0_cond1 i = 1#1

theorem lastPt_iff : ∀ t : Fin cfg0.N, lastPt (grid0.coords t) ↔ t.val = 7 :=
  (by decide +kernel : ∀ t : Fin grid0.N, lastPt (grid0.coords t) ↔ t.val = 7)

/-- The scratch buffer as the body is handed it: whole. -/
abbrev scM : Memref sig .tc .vmem S4096x256 .f32 := Memref.whole cc0_scratch0
abbrev hscM : (scM).IsWhole := Memref.isWhole_whole _

set_option maxHeartbeats 1000000 in
/-- Not at the last point: the first result's buffer and the scratch are stored into, the second result's buffer
    is handed back as found. -/
noncomputable def runA (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole) (hc : ¬lastPt i)
    (x0 : Vec F S512x4096 .f32) (x1 : Vec F S4096x256 .bf16) (x2 : Vec F S128x4096 .bf16) (xs : Vec F S4096x256 .f32) :
    Σ' (L4 : List (View.Piece (Elt F) S512x4096 .f32)), { LS : List (View.Piece (Elt F) S4096x256 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi5 ∗ owns (c : Thread nD τ) scM fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ owns (c : Thread nD τ) arg5 fullShare xi5
                ∗ (scM.view.loc (c : Thread nD τ) ↦[scM.view.set]{fullShare} scM.view.writes (Elt F) (hscM.unread xs) LS)) -∗ K ⟨⟩))
          ⊢ wp frame (wpE (defs₀ (F := F)) Variants.none c none) E (cc0__fused_kernel i arg1 harg1 arg2 harg2 arg3 harg3 arg4 harg4 arg5 harg5 scM hscM) K } := by
  refine ⟨?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg1.eq_unread hf0; obtain rfl := harg2.eq_unread hf1; obtain rfl := harg3.eq_unread hf2
    obtain rfl := harg5.eq_unread hf4; obtain rfl := hscM.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexact HS

set_option maxHeartbeats 1000000 in
/-- At the last point: both results' buffers and the scratch are stored into. -/
noncomputable def runB (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole) (hc : lastPt i)
    (x0 : Vec F S512x4096 .f32) (x1 : Vec F S4096x256 .bf16) (x2 : Vec F S128x4096 .bf16) (xs : Vec F S4096x256 .f32) :
    Σ' (L4 : List (View.Piece (Elt F) S512x4096 .f32)) (L5 : List (View.Piece (Elt F) S4096x128 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) scM fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (scM.view.loc (c : Thread nD τ) ↦[scM.view.set]{fullShare} scM.view.writes (Elt F) (hscM.unread xs) LS)) -∗ K ⟨⟩))
          ⊢ wp frame (wpE (defs₀ (F := F)) Variants.none c none) E (cc0__fused_kernel i arg1 harg1 arg2 harg2 arg3 harg3 arg4 harg4 arg5 harg5 scM hscM) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2
    obtain rfl := hscM.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexact HS

end Cert.Kernel.Body

end
-- ==== Proof.KValsBits.lean ====
/-
  What the kernel leaves in its buffers, as functions of the blocks the grid points are handed.

  Point t is handed rows [512 t, 512 t + 512) of the first operand and the whole second and third operands. It
  stores their 512 x 256 product (`abAt`) in the same rows of the scratch, so once every point has run the scratch
  is `scrFull`: row y of it is row (y mod 512) of point (y div 512)'s product. The first result's block at point t
  is `out3`; the second result, stored at the last point from the scratch's two column halves, is `out4`.
-/
import proofs.«150679_g65627100283412_cont_sun_m_691_11_alg».proof.Proof.Gen.Kernel.Frame
import proofs.«150679_g65627100283412_cont_sun_m_691_11_alg».proof.Proof.Gen.Kernel.Skeleton
import Idealize.ShloMosaic.Lib.Pipeline.FrameBody
import Idealize.ShloMosaic.Lib.ValueIdx

noncomputable section

namespace Cert.Kernel.Body

open Cert.Kernel Cert.Kernel.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-- The grid has eight points. -/
theorem N8 : cfg0.N = 8 := N_0

/-- The blocks point `t` is handed, each at its literal type: 512 rows of the first operand, -/
abbrev ablk (c : Dev nD) (t : Fin cfg0.N) : Vec F S512x4096 .f32 := iblk m c 0 t
/-- the whole second operand, -/
abbrev bblk (c : Dev nD) (t : Fin cfg0.N) : Vec F S4096x256 .bf16 := iblk m c 1 t
/-- and the whole third operand. -/
abbrev wblk (c : Dev nD) (t : Fin cfg0.N) : Vec F S128x4096 .bf16 := iblk m c 2 t

/-- The 512 x 256 product point `t` stores in rows [512 t, 512 t + 512) of the scratch. -/
def abAt (c : Dev nD) (t : Fin cfg0.N) : Vec F S512x256 .f32 := k0_pay2 (ablk m c t) (bblk m c t)

/-- The scratch once every point has stored its rows. -/
def scrFull (c : Dev nD) : Vec F S4096x256 .f32 := fun y =>
  abAt m c ⟨(y 0).val / 512, by rw [N8]; have := idx2_lt0 y; omega⟩
    (ix2 (⟨(y 0).val % 512, Nat.mod_lt _ (by decide)⟩ : Fin 512) (⟨(y 1).val, idx2_lt1 y⟩ : Fin 256))

/-- The block of the first result point `t` stores. -/
def out3 (c : Dev nD) (t : Fin cfg0.N) : Vec F S512x4096 .f32 := k0_pay3 (ablk m c t) (bblk m c t) (wblk m c t)

/-- The second result, as the last point stores it: from the left and the right 128 columns of the full scratch. -/
def out4 (c : Dev nD) (t : Fin cfg0.N) : Vec F S4096x128 .f32 :=
  k0_pay4 (View.ld (scrFull m c) (Rect.unit (s := S4096x256) ![0, 0] S4096x128.size inb_S4096x256_S4096x128_0_0))
    (View.ld (scrFull m c) (Rect.unit (s := S4096x256) ![0, 128] S4096x128.size inb_S4096x256_S4096x128_0_128))
    (wblk m c t)

end Cert.Kernel.Body

end
-- ==== Proof.KBodyBits.lean ====
/-
  The kernel's run over the grid: what the scratch and the two results hold point by point, and the frame run.

  The scratch is never stored whole. Point t stores its 512 x 256 product into rows [512 t, 512 t + 512) and
  leaves every other row as it was, so after points 0 .. n - 1 the rows below 512 n are those of `scrFull` and
  the rows above are whatever the buffer held at the start. That agreement on the rows below 512 n is the
  invariant carried from point to point (`ScrInv`). At the last point the eighth block of rows is stored too, the
  scratch IS `scrFull`, and the second result is computed from it: `out4`.
-/
import proofs.«150679_g65627100283412_cont_sun_m_691_11_alg».proof.Proof.KRunBits
import proofs.«150679_g65627100283412_cont_sun_m_691_11_alg».proof.Proof.KValsBits
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := funext fun a => by fin_cases a <;> rfl

/-- One store through a buffer's whole rectangle leaves the stored value, whatever was there. -/
theorem read_writes_one_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  funext y
  exact View.read_writes_cons_unit_of_mem v f inb w [] y y h (fun a => (Nat.zero_add _).symm)

/-! ## One store of 512 rows into the scratch -/

/-- The scratch after the 512 rows `v` are stored at point `i`'s rows over contents `xs`. -/
def scrNext (i : grid0.Coords) (xs : Vec F S4096x256 .f32) (v : Vec F S512x256 .f32) : Vec F S4096x256 .f32 :=
  scM.view.read (Elt F) (scM.view.writes (Elt F) (hscM.unread xs)
    [(⟨Rect.unit (s := S4096x256) (k0_off1 i) S512x256.size (k0_off1_inb i), v⟩ : View.Piece (Elt F) S4096x256 .f32)])

/-- A row among the 512 stored reads the stored value. -/
theorem scrNext_in (i : grid0.Coords) (xs : Vec F S4096x256 .f32) (v : Vec F S512x256 .f32) (y : S4096x256.Idx)
    (r q : ℕ) (hr : r < 512) (hq : q < 256) (h0 : (y 0).val = 512 * (i 0).val + r) (h1 : (y 1).val = q) :
    scrNext i xs v y = v (ix2 (⟨r, hr⟩ : Fin 512) (⟨q, hq⟩ : Fin 256)) := by
  unfold scrNext
  exact View.read_writes_cons_rows_of_mem scM.view (hscM.unread xs) (k0_off1_inb i) v [] y
    (ix2 (⟨r, hr⟩ : Fin 512) (⟨q, hq⟩ : Fin 256)) (k0_off1_eq i) h0 h1

/-- Any other row reads what was there. -/
theorem scrNext_out (i : grid0.Coords) (xs : Vec F S4096x256 .f32) (v : Vec F S512x256 .f32) (y : S4096x256.Idx)
    (h : (y 0).val < 512 * (i 0).val ∨ 512 * (i 0).val + 512 ≤ (y 0).val) : scrNext i xs v y = xs y := by
  unfold scrNext
  rw [View.read_writes_cons_rows_of_not_mem scM.view (hscM.unread xs) (k0_off1_inb i) v [] y (k0_off1_eq i) (W := 512) rfl h]
  show scM.view.read (Elt F) (hscM.unread xs) y = xs y
  rw [hscM.read_unread]

/-! ## What each case's run leaves in the buffers it stores into -/

section Leaves

variable (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole)
  (x0 : Vec F S512x4096 .f32) (x1 : Vec F S4096x256 .bf16) (x2 : Vec F S128x4096 .bf16) (xs : Vec F S4096x256 .f32)

theorem runA_out3 (hc : ¬lastPt i) (f : arg4.view.ty.Contents (Elt F)) :
    arg4.view.read (Elt F) (arg4.view.writes (Elt F) f (runA c i arg1 harg1 arg2 harg2 arg3 harg3 arg4 harg4 arg5 harg5 hc x0 x1 x2 xs).1)
      = k0_pay3 x0 x1 x2 := by
  unfold runA; dsimp only; sl_unfold_words
  refine (read_writes_one_whole (S := S512x4096) arg4.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]

theorem runA_scr (hc : ¬lastPt i) :
    scM.view.read (Elt F) (scM.view.writes (Elt F) (hscM.unread xs) (runA c i arg1 harg1 arg2 harg2 arg3 harg3 arg4 harg4 arg5 harg5 hc x0 x1 x2 xs).2.1)
      = scrNext i xs (k0_pay2 x0 x1) := by
  unfold runA scrNext; dsimp only; sl_unfold_words
  simp only [View.readAt_eq_ld, harg1.read_unread, harg2.read_unread,
    View.ld_unit_zero (S := S512x4096) hz2, View.ld_unit_zero (S := S4096x256) hz2]

theorem runB_out3 (hc : lastPt i) (f : arg4.view.ty.Contents (Elt F)) :
    arg4.view.read (Elt F) (arg4.view.writes (Elt F) f (runB c i arg1 harg1 arg2 harg2 arg3 harg3 arg4 harg4 arg5 harg5 hc x0 x1 x2 xs).1)
      = k0_pay3 x0 x1 x2 := by
  unfold runB; dsimp only; sl_unfold_words
  refine (read_writes_one_whole (S := S512x4096) arg4.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]

theorem runB_scr (hc : lastPt i) :
    scM.view.read (Elt F) (scM.view.writes (Elt F) (hscM.unread xs) (runB c i arg1 harg1 arg2 harg2 arg3 harg3 arg4 harg4 arg5 harg5 hc x0 x1 x2 xs).2.2.1)
      = scrNext i xs (k0_pay2 x0 x1) := by
  unfold runB scrNext; dsimp only; sl_unfold_words
  simp only [View.readAt_eq_ld, harg1.read_unread, harg2.read_unread,
    View.ld_unit_zero (S := S512x4096) hz2, View.ld_unit_zero (S := S4096x256) hz2]

theorem runB_out4 (hc : lastPt i) (f : arg5.view.ty.Contents (Elt F)) :
    arg5.view.read (Elt F) (arg5.view.writes (Elt F) f (runB c i arg1 harg1 arg2 harg2 arg3 harg3 arg4 harg4 arg5 harg5 hc x0 x1 x2 xs).2.1)
      = k0_pay4 (View.ld (scrNext i xs (k0_pay2 x0 x1)) (Rect.unit (s := S4096x256) ![0, 0] S4096x128.size inb_S4096x256_S4096x128_0_0))
          (View.ld (scrNext i xs (k0_pay2 x0 x1)) (Rect.unit (s := S4096x256) ![0, 128] S4096x128.size inb_S4096x256_S4096x128_0_128)) x2 := by
  unfold runB scrNext; dsimp only; sl_unfold_words
  refine (read_writes_one_whole (S := S4096x128) arg5.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]
  try rfl

end Leaves

variable (m : (ℓ : Loc nD τ sig) → Buf (Elt F) ℓ) (ρ : Dev nD → PrngReg)

/-! ## The invariant on the scratch -/

/-- Point `t`'s grid coordinate is `t`. -/
theorem coords_val : ∀ t : Fin cfg0.N, ((grid0.coords t) 0).val = t.val :=
  (by decide +kernel : ∀ t : Fin grid0.N, ((grid0.coords t) 0).val = t.val)

/-- The full scratch at row 512 t + r, column q is point t's product at (r, q). -/
theorem scrFull_apply (c : Dev nD) (t : Fin cfg0.N) (r q : ℕ) (hr : r < 512) (hq : q < 256) (y : S4096x256.Idx)
    (h0 : (y 0).val = 512 * t.val + r) (h1 : (y 1).val = q) :
    scrFull m c y = abAt m c t (ix2 (⟨r, hr⟩ : Fin 512) (⟨q, hq⟩ : Fin 256)) := by
  have e1 : (y 0).val / 512 = t.val := by omega
  have e2 : (y 0).val % 512 = r := by omega
  unfold scrFull
  exact congr (congrArg (abAt m c) (Fin.ext e1)) (congr (congrArg ix2 (Fin.ext e2)) (Fin.ext h1))

/-- After the first `n` points the scratch agrees with the full scratch on the rows below 512 n. -/
def ScrInv (c : Dev nD) (n : ℕ) (xs : Vec F S4096x256 .f32) : Prop :=
  ∀ y : S4096x256.Idx, (y 0).val < 512 * n → xs y = scrFull m c y

/-- Point `t`'s store extends the agreement by its 512 rows. -/
theorem ScrInv_step (c : Dev nD) (t : Fin cfg0.N) (xs : Vec F S4096x256 .f32) (h : ScrInv m c t.val xs) :
    ScrInv m c (t.val + 1) (scrNext (grid0.coords t) xs (abAt m c t)) := by
  intro y hy
  have hc := coords_val t
  by_cases hlt : (y 0).val < 512 * t.val
  · rw [scrNext_out _ _ _ y (Or.inl (by rw [hc]; exact hlt))]
    exact h y hlt
  · have h0 : (y 0).val = 512 * t.val + ((y 0).val - 512 * t.val) := by omega
    have hr : (y 0).val - 512 * t.val < 512 := by omega
    rw [scrNext_in _ _ _ y ((y 0).val - 512 * t.val) (y 1).val hr (idx2_lt1 y) (by rw [hc]; exact h0) rfl]
    exact (scrFull_apply m c t _ _ hr (idx2_lt1 y) y h0 rfl).symm

/-- Agreement on all 4096 rows is equality. -/
theorem ScrInv_full (c : Dev nD) (xs : Vec F S4096x256 .f32) (h : ScrInv m c 8 xs) : xs = scrFull m c :=
  funext fun y => h y (by have := idx2_lt0 y; omega)

/-- At the last point the store completes the scratch. -/
theorem scr_last (c : Dev nD) (t : Fin cfg0.N) (h7 : t.val = 7) (xs : Vec F S4096x256 .f32) (h : ScrInv m c t.val xs) :
    scrNext (grid0.coords t) xs (abAt m c t) = scrFull m c :=
  ScrInv_full m c _ (by have := ScrInv_step m c t xs h; rw [h7] at this; exact this)

/-! ## The proof data -/

/-- Before point `n`: the scratch at some contents that agree with the full scratch below row 512 n, and the
    generator register at some state. -/
def PhiS (c : Dev nD) (n : ℕ) : sProp 𝕄 :=
  iprop(iprop(∃ xs, ⌜ScrInv m c n xs⌝ ∗ owns (c : Thread nD τ) scM fullShare xs) ∗ (∃ r, prngReg c r))

/-- The arrays as the region finds them; after the body at point `t` each input's buffer at its block, the first
    result's at `out3`, the second result's at `out4` (read only at the last point, the one point that stores it and
    writes it back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 m c t := by dsimp only [dats]
theorem after_4 (c : Dev nD) (t : Fin cfg0.N) : (dats m 0 c).after 4 t = out4 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where the windows are idle, decided over the grid -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The second result's window is stored into at the last point, -/
theorem live_4 : ∀ t : Fin cfg0.N, t.val = 7 → cfg0.idle 4 (grid0.coords t) = false := by decide +kernel
/-- and at every other point it is idle and not written back. -/
theorem idle_4 : ∀ t : Fin cfg0.N, t.val ≠ 7 → cfg0.idle 4 (grid0.coords t) = true := by decide +kernel
theorem noFlush_4 : ∀ t : Fin cfg0.N, t.val ≠ 7 → (cfg0.win 4).flush t = false := by decide +kernel

/-! ## The body obligation -/

/-- Each window's current staging memref at point `t`, as the pipeline passes it. -/
abbrev ms_0 (t : Fin cfg0.N) : Memref sig .tc .vmem S512x4096 .f32 := win0_0.stage (cfg0.slots t 0)
abbrev ms_1 (t : Fin cfg0.N) : Memref sig .tc .vmem S4096x256 .bf16 := win0_1.stage (cfg0.slots t 1)
abbrev ms_2 (t : Fin cfg0.N) : Memref sig .tc .vmem S128x4096 .bf16 := win0_2.stage (cfg0.slots t 2)
abbrev ms_3 (t : Fin cfg0.N) : Memref sig .tc .vmem S512x4096 .f32 := win0_3.stage (cfg0.slots t 3)
abbrev ms_4 (t : Fin cfg0.N) : Memref sig .tc .vmem S4096x128 .f32 := win0_4.stage (cfg0.slots t 4)

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point: the inputs' buffers hold their blocks; the scratch comes at contents that agree with
    the full scratch below the point's rows and goes back agreeing below the next point's; at the last point the
    scratch is complete when the second result is computed from it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  by_cases h7 : t.val = 7
  · rw [show (dats m 0 c).leavesExact 4 t = owns (c : Thread nD τ) (ms_4 t) fullShare ((dats m 0 c).after 4 t) from by
      unfold Dat.leavesExact; rw [live_4 t h7], after_4]
    iintro ⟨⟨⟨%xs, %hinv, HS⟩, Hg⟩, Ho, ⟨%d0, H0⟩, ⟨%d1, H1⟩, ⟨%d2, H2⟩, ⟨%d3, H3⟩, ⟨%d4, H4⟩⟩
    iapply ((runB c (grid0.coords t) _ _ _ _ _ _ _ _ _ _ ((lastPt_iff t).mpr h7) (iblk m c 0 t) (iblk m c 1 t) (iblk m c 2 t) xs).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, HS⟩
    isplitl [HS Hg]
    · isplitl [HS]
      · iexists _; isplitr; swap
        · unfold owns; iexists _; isplitr; swap; · iexact HS
          ipureintro; rfl
        ipureintro
        refine Eq.mpr (congrArg (ScrInv m c (t.val + 1)) (runB_scr _ _ _ _ _ _ _ _ _ _ _ _ _ _ _ _ _)) ?_
        exact ScrInv_step m c t xs hinv
      iexact Hg
    isplitl [Ho]; · iexact Ho
    isplitl [H0]; · iexact H0
    isplitl [H1]; · iexact H1
    isplitl [H2]; · iexact H2
    isplitl [H3]
    · unfold owns; iexists _; isplitr; swap; · iexact H3
      ipureintro; exact runB_out3 c _ _ _ _ _ _ _ _ _ _ _ _ _ _ _ _ _
    unfold owns; iexists _; isplitr; swap; · iexact H4
    ipureintro
    refine (runB_out4 _ _ _ _ _ _ _ _ _ _ _ _ _ _ _ _ _ _).trans ?_
    unfold out4
    rw [← scr_last m c t h7 xs hinv]
    rfl
  · rw [Dat.leavesExact_idle (dats m 0 c) 4 t (idle_4 t h7) (noFlush_4 t h7)]
    iintro ⟨⟨⟨%xs, %hinv, HS⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ (fun h => h7 ((lastPt_iff t).mp h)) (iblk m c 0 t) (iblk m c 1 t) (iblk m c 2 t) xs).2.2 _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, ⟨%e3, H3⟩, H4, HS⟩
    isplitl [HS Hg]
    · isplitl [HS]
      · iexists _; isplitr; swap
        · unfold owns; iexists _; isplitr; swap; · iexact HS
          ipureintro; rfl
        ipureintro
        refine Eq.mpr (congrArg (ScrInv m c (t.val + 1)) (runA_scr _ _ _ _ _ _ _ _ _ _ _ _ _ _ _ _ _)) ?_
        exact ScrInv_step m c t xs hinv
      iexact Hg
    isplitl [Ho]; · iexact Ho
    isplitl [H0]; · iexact H0
    isplitl [H1]; · iexact H1
    isplitl [H2]; · iexact H2
    isplitl [H3]
    · unfold owns; iexists _; isplitr; swap; · iexact H3
      ipureintro; exact runA_out3 c _ _ _ _ _ _ _ _ _ _ _ _ _ _ _ _ _
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiS m c 0 from rfl, PhiA_eq]; unfold PhiS
  iintro ⟨⟨%d, HS⟩, Hg⟩
  isplitl [HS]
  · iexists d; isplitr
    · ipureintro; exact fun y hy => absurd hy (by omega)
    iexact HS
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%xs, -, HS⟩, Hg⟩
  isplitl [HS]
  · iexists _; iexact HS
  iexact Hg

/-! ## The run -/

set_option backward.isDefEq.respectTransparency.types false in
/-- Every weakly fair execution of @main terminates, each array of the pipeline at what the proof data computes
    (an input unchanged, a result its blocks as written back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KRun.lean ====
/-
  The kernel body run once, in each of its two cases, on whole staging buffers.

  At a grid point the body multiplies the point's 512 rows of the first operand by the whole second operand,
  keeps the 512 x 256 product in rows [512 i, 512 i + 512) of the scratch, and stores that product's left half
  times the third operand as the point's block of the first result. At the last point only, it then reads the
  two column halves of the whole scratch (every row block by then written, the last by this very point) and stores
  left half times (third operand times right half) as the second result.

  Each run hands back, for every buffer the body stores into, the list of stores it made (newest first); the
  scratch is handed back as exactly those stores written over what the point found in it, so that what an
  earlier point stored is still there for the last point to read.
-/
import proofs.«150679_g65627100283412_cont_sun_m_691_11_alg».proof.Proof.Gen.KernelIdeal.Frame
import proofs.«150679_g65627100283412_cont_sun_m_691_11_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: it holds at the last grid point only. -/
abbrev lastPt (i : grid0.Coords) : Prop := k0_cond1 i = 1#1

theorem lastPt_iff : ∀ t : Fin cfg0.N, lastPt (grid0.coords t) ↔ t.val = 7 :=
  (by decide +kernel : ∀ t : Fin grid0.N, lastPt (grid0.coords t) ↔ t.val = 7)

/-- The scratch buffer as the body is handed it: whole. -/
abbrev scM : Memref sig .tc .vmem S4096x256 .f32 := Memref.whole cc0_scratch0
abbrev hscM : (scM).IsWhole := Memref.isWhole_whole _

set_option maxHeartbeats 1000000 in
/-- Not at the last point: the first result's buffer and the scratch are stored into, the second result's buffer
    is handed back as found. -/
noncomputable def runA (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole) (hc : ¬lastPt i)
    (x0 : Vec F S512x4096 .f32) (x1 : Vec F S4096x256 .bf16) (x2 : Vec F S128x4096 .bf16) (xs : Vec F S4096x256 .f32) :
    Σ' (L4 : List (View.Piece (Elt F) S512x4096 .f32)), { LS : List (View.Piece (Elt F) S4096x256 .f32) //
      ∀ (xi5 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi5 ∗ owns (c : Thread nD τ) scM fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ owns (c : Thread nD τ) arg5 fullShare xi5
                ∗ (scM.view.loc (c : Thread nD τ) ↦[scM.view.set]{fullShare} scM.view.writes (Elt F) (hscM.unread xs) LS)) -∗ K ⟨⟩))
          ⊢ wp frame (wpE (defs₀ (F := F)) Variants.none c none) E (cc0__fused_kernel i arg1 harg1 arg2 harg2 arg3 harg3 arg4 harg4 arg5 harg5 scM hscM) K } := by
  refine ⟨?_, ?_, fun xi5 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg1.eq_unread hf0; obtain rfl := harg2.eq_unread hf1; obtain rfl := harg3.eq_unread hf2
    obtain rfl := harg5.eq_unread hf4; obtain rfl := hscM.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    iexact HS

set_option maxHeartbeats 1000000 in
/-- At the last point: both results' buffers and the scratch are stored into. -/
noncomputable def runB (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole) (hc : lastPt i)
    (x0 : Vec F S512x4096 .f32) (x1 : Vec F S4096x256 .bf16) (x2 : Vec F S128x4096 .bf16) (xs : Vec F S4096x256 .f32) :
    Σ' (L4 : List (View.Piece (Elt F) S512x4096 .f32)) (L5 : List (View.Piece (Elt F) S4096x128 .f32)), { LS : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) scM fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (scM.view.loc (c : Thread nD τ) ↦[scM.view.set]{fullShare} scM.view.writes (Elt F) (hscM.unread xs) LS)) -∗ K ⟨⟩))
          ⊢ wp frame (wpE (defs₀ (F := F)) Variants.none c none) E (cc0__fused_kernel i arg1 harg1 arg2 harg2 arg3 harg3 arg4 harg4 arg5 harg5 scM hscM) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2
    obtain rfl := hscM.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexact HS

end Cert.KernelIdeal.Body

end
-- ==== Proof.KVals.lean ====
/-
  What the kernel leaves in its buffers, as functions of the blocks the grid points are handed.

  Point t is handed rows [512 t, 512 t + 512) of the first operand and the whole second and third operands. It
  stores their 512 x 256 product (`abAt`) in the same rows of the scratch, so once every point has run the scratch
  is `scrFull`: row y of it is row (y mod 512) of point (y div 512)'s product. The first result's block at point t
  is `out3`; the second result, stored at the last point from the scratch's two column halves, is `out4`.
-/
import proofs.«150679_g65627100283412_cont_sun_m_691_11_alg».proof.Proof.Gen.KernelIdeal.Frame
import proofs.«150679_g65627100283412_cont_sun_m_691_11_alg».proof.Proof.Gen.KernelIdeal.Skeleton
import Idealize.ShloMosaic.Lib.Pipeline.FrameBody
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-- The grid has eight points. -/
theorem N8 : cfg0.N = 8 := N_0

/-- The blocks point `t` is handed, each at its literal type: 512 rows of the first operand, -/
abbrev ablk (c : Dev nD) (t : Fin cfg0.N) : Vec F S512x4096 .f32 := iblk m c 0 t
/-- the whole second operand, -/
abbrev bblk (c : Dev nD) (t : Fin cfg0.N) : Vec F S4096x256 .bf16 := iblk m c 1 t
/-- and the whole third operand. -/
abbrev wblk (c : Dev nD) (t : Fin cfg0.N) : Vec F S128x4096 .bf16 := iblk m c 2 t

/-- The 512 x 256 product point `t` stores in rows [512 t, 512 t + 512) of the scratch. -/
def abAt (c : Dev nD) (t : Fin cfg0.N) : Vec F S512x256 .f32 := k0_pay2 (ablk m c t) (bblk m c t)

/-- The scratch once every point has stored its rows. -/
def scrFull (c : Dev nD) : Vec F S4096x256 .f32 := fun y =>
  abAt m c ⟨(y 0).val / 512, by rw [N8]; have := idx2_lt0 y; omega⟩
    (ix2 (⟨(y 0).val % 512, Nat.mod_lt _ (by decide)⟩ : Fin 512) (⟨(y 1).val, idx2_lt1 y⟩ : Fin 256))

/-- The block of the first result point `t` stores. -/
def out3 (c : Dev nD) (t : Fin cfg0.N) : Vec F S512x4096 .f32 := k0_pay3 (ablk m c t) (bblk m c t) (wblk m c t)

/-- The second result, as the last point stores it: from the left and the right 128 columns of the full scratch. -/
def out4 (c : Dev nD) (t : Fin cfg0.N) : Vec F S4096x128 .f32 :=
  k0_pay4 (View.ld (scrFull m c) (Rect.unit (s := S4096x256) ![0, 0] S4096x128.size inb_S4096x256_S4096x128_0_0))
    (View.ld (scrFull m c) (Rect.unit (s := S4096x256) ![0, 128] S4096x128.size inb_S4096x256_S4096x128_0_128))
    (wblk m c t)

end Cert.KernelIdeal.Body

end
-- ==== Proof.KBody.lean ====
/-
  The kernel's run over the grid: what the scratch and the two results hold point by point, and the frame run.

  The scratch is never stored whole. Point t stores its 512 x 256 product into rows [512 t, 512 t + 512) and
  leaves every other row as it was, so after points 0 .. n - 1 the rows below 512 n are those of `scrFull` and
  the rows above are whatever the buffer held at the start. That agreement on the rows below 512 n is the
  invariant carried from point to point (`ScrInv`). At the last point the eighth block of rows is stored too, the
  scratch IS `scrFull`, and the second result is computed from it: `out4`.
-/
import proofs.«150679_g65627100283412_cont_sun_m_691_11_alg».proof.Proof.KRun
import proofs.«150679_g65627100283412_cont_sun_m_691_11_alg».proof.Proof.KVals
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := funext fun a => by fin_cases a <;> rfl

/-- One store through a buffer's whole rectangle leaves the stored value, whatever was there. -/
theorem read_writes_one_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  funext y
  exact View.read_writes_cons_unit_of_mem v f inb w [] y y h (fun a => (Nat.zero_add _).symm)

/-! ## One store of 512 rows into the scratch -/

/-- The scratch after the 512 rows `v` are stored at point `i`'s rows over contents `xs`. -/
def scrNext (i : grid0.Coords) (xs : Vec F S4096x256 .f32) (v : Vec F S512x256 .f32) : Vec F S4096x256 .f32 :=
  scM.view.read (Elt F) (scM.view.writes (Elt F) (hscM.unread xs)
    [(⟨Rect.unit (s := S4096x256) (k0_off1 i) S512x256.size (k0_off1_inb i), v⟩ : View.Piece (Elt F) S4096x256 .f32)])

/-- A row among the 512 stored reads the stored value. -/
theorem scrNext_in (i : grid0.Coords) (xs : Vec F S4096x256 .f32) (v : Vec F S512x256 .f32) (y : S4096x256.Idx)
    (r q : ℕ) (hr : r < 512) (hq : q < 256) (h0 : (y 0).val = 512 * (i 0).val + r) (h1 : (y 1).val = q) :
    scrNext i xs v y = v (ix2 (⟨r, hr⟩ : Fin 512) (⟨q, hq⟩ : Fin 256)) := by
  unfold scrNext
  exact View.read_writes_cons_rows_of_mem scM.view (hscM.unread xs) (k0_off1_inb i) v [] y
    (ix2 (⟨r, hr⟩ : Fin 512) (⟨q, hq⟩ : Fin 256)) (k0_off1_eq i) h0 h1

/-- Any other row reads what was there. -/
theorem scrNext_out (i : grid0.Coords) (xs : Vec F S4096x256 .f32) (v : Vec F S512x256 .f32) (y : S4096x256.Idx)
    (h : (y 0).val < 512 * (i 0).val ∨ 512 * (i 0).val + 512 ≤ (y 0).val) : scrNext i xs v y = xs y := by
  unfold scrNext
  rw [View.read_writes_cons_rows_of_not_mem scM.view (hscM.unread xs) (k0_off1_inb i) v [] y (k0_off1_eq i) (W := 512) rfl h]
  show scM.view.read (Elt F) (hscM.unread xs) y = xs y
  rw [hscM.read_unread]

/-! ## What each case's run leaves in the buffers it stores into -/

section Leaves

variable (c : Dev nD) (i : grid0.Coords) (arg1 : Memref sig .tc .vmem S512x4096 .f32) (harg1 : arg1.IsWhole) (arg2 : Memref sig .tc .vmem S4096x256 .bf16) (harg2 : arg2.IsWhole) (arg3 : Memref sig .tc .vmem S128x4096 .bf16) (harg3 : arg3.IsWhole) (arg4 : Memref sig .tc .vmem S512x4096 .f32) (harg4 : arg4.IsWhole) (arg5 : Memref sig .tc .vmem S4096x128 .f32) (harg5 : arg5.IsWhole)
  (x0 : Vec F S512x4096 .f32) (x1 : Vec F S4096x256 .bf16) (x2 : Vec F S128x4096 .bf16) (xs : Vec F S4096x256 .f32)

theorem runA_out3 (hc : ¬lastPt i) (f : arg4.view.ty.Contents (Elt F)) :
    arg4.view.read (Elt F) (arg4.view.writes (Elt F) f (runA c i arg1 harg1 arg2 harg2 arg3 harg3 arg4 harg4 arg5 harg5 hc x0 x1 x2 xs).1)
      = k0_pay3 x0 x1 x2 := by
  unfold runA; dsimp only; sl_unfold_words
  refine (read_writes_one_whole (S := S512x4096) arg4.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]

theorem runA_scr (hc : ¬lastPt i) :
    scM.view.read (Elt F) (scM.view.writes (Elt F) (hscM.unread xs) (runA c i arg1 harg1 arg2 harg2 arg3 harg3 arg4 harg4 arg5 harg5 hc x0 x1 x2 xs).2.1)
      = scrNext i xs (k0_pay2 x0 x1) := by
  unfold runA scrNext; dsimp only; sl_unfold_words
  simp only [View.readAt_eq_ld, harg1.read_unread, harg2.read_unread,
    View.ld_unit_zero (S := S512x4096) hz2, View.ld_unit_zero (S := S4096x256) hz2]

theorem runB_out3 (hc : lastPt i) (f : arg4.view.ty.Contents (Elt F)) :
    arg4.view.read (Elt F) (arg4.view.writes (Elt F) f (runB c i arg1 harg1 arg2 harg2 arg3 harg3 arg4 harg4 arg5 harg5 hc x0 x1 x2 xs).1)
      = k0_pay3 x0 x1 x2 := by
  unfold runB; dsimp only; sl_unfold_words
  refine (read_writes_one_whole (S := S512x4096) arg4.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]

theorem runB_scr (hc : lastPt i) :
    scM.view.read (Elt F) (scM.view.writes (Elt F) (hscM.unread xs) (runB c i arg1 harg1 arg2 harg2 arg3 harg3 arg4 harg4 arg5 harg5 hc x0 x1 x2 xs).2.2.1)
      = scrNext i xs (k0_pay2 x0 x1) := by
  unfold runB scrNext; dsimp only; sl_unfold_words
  simp only [View.readAt_eq_ld, harg1.read_unread, harg2.read_unread,
    View.ld_unit_zero (S := S512x4096) hz2, View.ld_unit_zero (S := S4096x256) hz2]

theorem runB_out4 (hc : lastPt i) (f : arg5.view.ty.Contents (Elt F)) :
    arg5.view.read (Elt F) (arg5.view.writes (Elt F) f (runB c i arg1 harg1 arg2 harg2 arg3 harg3 arg4 harg4 arg5 harg5 hc x0 x1 x2 xs).2.1)
      = k0_pay4 (View.ld (scrNext i xs (k0_pay2 x0 x1)) (Rect.unit (s := S4096x256) ![0, 0] S4096x128.size inb_S4096x256_S4096x128_0_0))
          (View.ld (scrNext i xs (k0_pay2 x0 x1)) (Rect.unit (s := S4096x256) ![0, 128] S4096x128.size inb_S4096x256_S4096x128_0_128)) x2 := by
  unfold runB scrNext; dsimp only; sl_unfold_words
  refine (read_writes_one_whole (S := S4096x128) arg5.view f hz2 _ _).trans ?_
  simp only [View.readAt_eq_ld, harg1.read_unread, harg2.read_unread, harg3.read_unread,
    View.ld_unit_zero (S := S512x4096) hz2, View.ld_unit_zero (S := S4096x256) hz2, View.ld_unit_zero (S := S128x4096) hz2]
  try rfl

end Leaves

variable (m : (ℓ : Loc nD τ sig) → Buf (Elt F) ℓ) (ρ : Dev nD → PrngReg)

/-! ## The invariant on the scratch -/

/-- Point `t`'s grid coordinate is `t`. -/
theorem coords_val : ∀ t : Fin cfg0.N, ((grid0.coords t) 0).val = t.val :=
  (by decide +kernel : ∀ t : Fin grid0.N, ((grid0.coords t) 0).val = t.val)

/-- The full scratch at row 512 t + r, column q is point t's product at (r, q). -/
theorem scrFull_apply (c : Dev nD) (t : Fin cfg0.N) (r q : ℕ) (hr : r < 512) (hq : q < 256) (y : S4096x256.Idx)
    (h0 : (y 0).val = 512 * t.val + r) (h1 : (y 1).val = q) :
    scrFull m c y = abAt m c t (ix2 (⟨r, hr⟩ : Fin 512) (⟨q, hq⟩ : Fin 256)) := by
  have e1 : (y 0).val / 512 = t.val := by omega
  have e2 : (y 0).val % 512 = r := by omega
  unfold scrFull
  exact congr (congrArg (abAt m c) (Fin.ext e1)) (congr (congrArg ix2 (Fin.ext e2)) (Fin.ext h1))

/-- After the first `n` points the scratch agrees with the full scratch on the rows below 512 n. -/
def ScrInv (c : Dev nD) (n : ℕ) (xs : Vec F S4096x256 .f32) : Prop :=
  ∀ y : S4096x256.Idx, (y 0).val < 512 * n → xs y = scrFull m c y

/-- Point `t`'s store extends the agreement by its 512 rows. -/
theorem ScrInv_step (c : Dev nD) (t : Fin cfg0.N) (xs : Vec F S4096x256 .f32) (h : ScrInv m c t.val xs) :
    ScrInv m c (t.val + 1) (scrNext (grid0.coords t) xs (abAt m c t)) := by
  intro y hy
  have hc := coords_val t
  by_cases hlt : (y 0).val < 512 * t.val
  · rw [scrNext_out _ _ _ y (Or.inl (by rw [hc]; exact hlt))]
    exact h y hlt
  · have h0 : (y 0).val = 512 * t.val + ((y 0).val - 512 * t.val) := by omega
    have hr : (y 0).val - 512 * t.val < 512 := by omega
    rw [scrNext_in _ _ _ y ((y 0).val - 512 * t.val) (y 1).val hr (idx2_lt1 y) (by rw [hc]; exact h0) rfl]
    exact (scrFull_apply m c t _ _ hr (idx2_lt1 y) y h0 rfl).symm

/-- Agreement on all 4096 rows is equality. -/
theorem ScrInv_full (c : Dev nD) (xs : Vec F S4096x256 .f32) (h : ScrInv m c 8 xs) : xs = scrFull m c :=
  funext fun y => h y (by have := idx2_lt0 y; omega)

/-- At the last point the store completes the scratch. -/
theorem scr_last (c : Dev nD) (t : Fin cfg0.N) (h7 : t.val = 7) (xs : Vec F S4096x256 .f32) (h : ScrInv m c t.val xs) :
    scrNext (grid0.coords t) xs (abAt m c t) = scrFull m c :=
  ScrInv_full m c _ (by have := ScrInv_step m c t xs h; rw [h7] at this; exact this)

/-! ## The proof data -/

/-- Before point `n`: the scratch at some contents that agree with the full scratch below row 512 n, and the
    generator register at some state. -/
def PhiS (c : Dev nD) (n : ℕ) : sProp 𝕄 :=
  iprop(iprop(∃ xs, ⌜ScrInv m c n xs⌝ ∗ owns (c : Thread nD τ) scM fullShare xs) ∗ (∃ r, prngReg c r))

/-- The arrays as the region finds them; after the body at point `t` each input's buffer at its block, the first
    result's at `out3`, the second result's at `out4` (read only at the last point, the one point that stores it and
    writes it back). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 m c t := by dsimp only [dats]
theorem after_4 (c : Dev nD) (t : Fin cfg0.N) : (dats m 0 c).after 4 t = out4 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where the windows are idle, decided over the grid -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- The second result's window is stored into at the last point, -/
theorem live_4 : ∀ t : Fin cfg0.N, t.val = 7 → cfg0.idle 4 (grid0.coords t) = false := by decide +kernel
/-- and at every other point it is idle and not written back. -/
theorem idle_4 : ∀ t : Fin cfg0.N, t.val ≠ 7 → cfg0.idle 4 (grid0.coords t) = true := by decide +kernel
theorem noFlush_4 : ∀ t : Fin cfg0.N, t.val ≠ 7 → (cfg0.win 4).flush t = false := by decide +kernel

/-! ## The body obligation -/

/-- Each window's current staging memref at point `t`, as the pipeline passes it. -/
abbrev ms_0 (t : Fin cfg0.N) : Memref sig .tc .vmem S512x4096 .f32 := win0_0.stage (cfg0.slots t 0)
abbrev ms_1 (t : Fin cfg0.N) : Memref sig .tc .vmem S4096x256 .bf16 := win0_1.stage (cfg0.slots t 1)
abbrev ms_2 (t : Fin cfg0.N) : Memref sig .tc .vmem S128x4096 .bf16 := win0_2.stage (cfg0.slots t 2)
abbrev ms_3 (t : Fin cfg0.N) : Memref sig .tc .vmem S512x4096 .f32 := win0_3.stage (cfg0.slots t 3)
abbrev ms_4 (t : Fin cfg0.N) : Memref sig .tc .vmem S4096x128 .f32 := win0_4.stage (cfg0.slots t 4)

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point: the inputs' buffers hold their blocks; the scratch comes at contents that agree with
    the full scratch below the point's rows and goes back agreeing below the next point's; at the last point the
    scratch is complete when the second result is computed from it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  by_cases h7 : t.val = 7
  · rw [show (dats m 0 c).leavesExact 4 t = owns (c : Thread nD τ) (ms_4 t) fullShare ((dats m 0 c).after 4 t) from by
      unfold Dat.leavesExact; rw [live_4 t h7], after_4]
    iintro ⟨⟨⟨%xs, %hinv, HS⟩, Hg⟩, Ho, ⟨%d0, H0⟩, ⟨%d1, H1⟩, ⟨%d2, H2⟩, ⟨%d3, H3⟩, ⟨%d4, H4⟩⟩
    iapply ((runB c (grid0.coords t) _ _ _ _ _ _ _ _ _ _ ((lastPt_iff t).mpr h7) (iblk m c 0 t) (iblk m c 1 t) (iblk m c 2 t) xs).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, HS⟩
    isplitl [HS Hg]
    · isplitl [HS]
      · iexists _; isplitr; swap
        · unfold owns; iexists _; isplitr; swap; · iexact HS
          ipureintro; rfl
        ipureintro
        refine Eq.mpr (congrArg (ScrInv m c (t.val + 1)) (runB_scr _ _ _ _ _ _ _ _ _ _ _ _ _ _ _ _ _)) ?_
        exact ScrInv_step m c t xs hinv
      iexact Hg
    isplitl [Ho]; · iexact Ho
    isplitl [H0]; · iexact H0
    isplitl [H1]; · iexact H1
    isplitl [H2]; · iexact H2
    isplitl [H3]
    · unfold owns; iexists _; isplitr; swap; · iexact H3
      ipureintro; exact runB_out3 c _ _ _ _ _ _ _ _ _ _ _ _ _ _ _ _ _
    unfold owns; iexists _; isplitr; swap; · iexact H4
    ipureintro
    refine (runB_out4 _ _ _ _ _ _ _ _ _ _ _ _ _ _ _ _ _ _).trans ?_
    unfold out4
    rw [← scr_last m c t h7 xs hinv]
    rfl
  · rw [Dat.leavesExact_idle (dats m 0 c) 4 t (idle_4 t h7) (noFlush_4 t h7)]
    iintro ⟨⟨⟨%xs, %hinv, HS⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ (fun h => h7 ((lastPt_iff t).mp h)) (iblk m c 0 t) (iblk m c 1 t) (iblk m c 2 t) xs).2.2 _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, ⟨%e3, H3⟩, H4, HS⟩
    isplitl [HS Hg]
    · isplitl [HS]
      · iexists _; isplitr; swap
        · unfold owns; iexists _; isplitr; swap; · iexact HS
          ipureintro; rfl
        ipureintro
        refine Eq.mpr (congrArg (ScrInv m c (t.val + 1)) (runA_scr _ _ _ _ _ _ _ _ _ _ _ _ _ _ _ _ _)) ?_
        exact ScrInv_step m c t xs hinv
      iexact Hg
    isplitl [Ho]; · iexact Ho
    isplitl [H0]; · iexact H0
    isplitl [H1]; · iexact H1
    isplitl [H2]; · iexact H2
    isplitl [H3]
    · unfold owns; iexists _; isplitr; swap; · iexact H3
      ipureintro; exact runA_out3 c _ _ _ _ _ _ _ _ _ _ _ _ _ _ _ _ _
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiS m c 0 from rfl, PhiA_eq]; unfold PhiS
  iintro ⟨⟨%d, HS⟩, Hg⟩
  isplitl [HS]
  · iexists d; isplitr
    · ipureintro; exact fun y hy => absurd hy (by omega)
    iexact HS
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%xs, -, HS⟩, Hg⟩
  isplitl [HS]
  · iexists _; iexact HS
  iexact Hg

/-! ## The run -/

set_option backward.isDefEq.respectTransparency.types false in
/-- Every weakly fair execution of @main terminates, each array of the pipeline at what the proof data computes
    (an input unchanged, a result its blocks as written back) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KNamed.lean ====
/-
  The idealized kernel's run with its two results named: after the run the first result array holds what the
  proof data computes from the blocks written back at every point, the second what the last point wrote back,
  and the four argument arrays are unchanged.
-/
import proofs.«150679_g65627100283412_cont_sun_m_691_11_alg».proof.Proof.KBody

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- One run, every array read off it: the results at the proof data's final arrays, the arguments unchanged. -/
theorem run_named : θ_run defs (onTc (τ := τ) (main (F := F))) ⟨m, fun _ => 0, ρ⟩ (fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3, (h c).1 4,
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.Spec.lean ====
/-
  The two results as functions of the four argument arrays, index by index, over the extended reals.

  Every array is a matrix read at a pair of coordinates, and `mm x y` is the matrix product: entry (p, q) is the
  sum over k of x(p, k) * y(k, q). The kernel computes
      latent = (adj * feat) * wenc                 recon = (adj * feat) * (wenc * (adj * wdec))
  and the reference
      latent = adj * (feat * wenc)                 recon = (adj * (feat * wenc)) * (adj * wdec).
  The two groupings agree when every entry is a real number (products then distribute over the finite sums);
  with an infinite entry they need not, which is why the statement carries `IsReal`.
-/
import Idealize.ShloMosaic.PureOps.Ideal
import Idealize.ShloMosaic.Lib.ValueIdx

noncomputable section

open scoped BigOperators

namespace Cert.Spec

open Idealize.ShloMosaic Idealize.ShloMosaic.ValueIdx

/-- An `n0` by `n1` array of extended reals, indexed as the printed programs index a rank-2 tensor. -/
abbrev Arr (n0 n1 : Nat) : Type := (⟨2, ![n0, n1]⟩ : Shape).Idx → EReal

/-- The matrix product: entry (p, q) is the sum over k of x(p, k) * y(k, q). -/
def mm {a b c : Nat} (x : Arr a b) (y : Arr b c) : Arr a c :=
  fun i => ∑ k : Fin b, x (ix2 (n0 := a) ⟨(i 0).val, (i 0).isLt⟩ k) * y (ix2 (n1 := c) k ⟨(i 1).val, (i 1).isLt⟩)

theorem mm_ix2 {a b c : Nat} (x : Arr a b) (y : Arr b c) (p : Fin a) (q : Fin c) :
    mm x y (ix2 p q) = ∑ k : Fin b, x (ix2 p k) * y (ix2 k q) := rfl

/-- Every entry is a real number (neither infinity). -/
def IsReal {a b : Nat} (x : Arr a b) : Prop := ∀ i, ∃ r : ℝ, x i = (r : EReal)

/-- The kernel's first result: (adj * feat) * wenc. -/
def latentK (feat : Arr 4096 128) (adj : Arr 4096 4096) (wenc : Arr 128 4096) : Arr 4096 4096 :=
  mm (mm adj feat) wenc

/-- The reference's first result: adj * (feat * wenc). -/
def latentR (feat : Arr 4096 128) (adj : Arr 4096 4096) (wenc : Arr 128 4096) : Arr 4096 4096 :=
  mm adj (mm feat wenc)

/-- The kernel's second result: (adj * feat) * (wenc * (adj * wdec)). -/
def reconK (feat : Arr 4096 128) (adj : Arr 4096 4096) (wenc : Arr 128 4096) (wdec : Arr 4096 128) : Arr 4096 128 :=
  mm (mm adj feat) (mm wenc (mm adj wdec))

/-- The reference's second result: (adj * (feat * wenc)) * (adj * wdec). -/
def reconR (feat : Arr 4096 128) (adj : Arr 4096 4096) (wenc : Arr 128 4096) (wdec : Arr 4096 128) : Arr 4096 128 :=
  mm (latentR feat adj wenc) (mm adj wdec)

end Cert.Spec

end
-- ==== Proof.Payload.lean ====
import proofs.«150679_g65627100283412_cont_sun_m_691_11_alg».proof.Proof.Gen.KernelIdeal.Frame
import proofs.«150679_g65627100283412_cont_sun_m_691_11_alg».proof.Proof.Gen.KernelIdeal.Skeleton
import proofs.«150679_g65627100283412_cont_sun_m_691_11_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

/-
  The kernel's four payloads read at an index, over the extended reals.

  Each payload is a matrix product into a zero accumulator: entry (p, q) is the sum over k of left(p, k) * right(k, q),
  with no rounding left in it. A shape cast to the same shape, a narrowing and a widening of the float format are the
  identity on extended reals, and the slice of the left 128 columns of a [512, 256] array reads column k at column k.
  So, writing b for the [4096, 256] array whose left half is feat and whose right half is wdec,
      payload 1 = payload 2 = (block of adj) * b,
      payload 3 = (left half of payload 1) * wenc,
      payload 4 = v17 * (wenc * v18).
  The two arrays the host writes before the region are wenc itself and b.
-/

noncomputable section

open scoped BigOperators

namespace Cert.KernelIdeal.Pay

open Cert.KernelIdeal Cert.KernelIdeal.Gen Idealize.ShloMosaic Idealize.ShloMosaic.TcCoe Idealize.ShloMosaic.ValueIdx

variable [Cert.KernelIdeal.Facts]

/-! ### The first product: a [512, 4096] block of adj times the [4096, 256] array b. -/

theorem lhs_adjB_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_adjB_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_adjB_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_adjB_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Into the zero accumulator, entry (p, q) of the product is the sum over k of left(p, k) * right(k, q). -/
theorem matmul_adjB_apply {φ₁ φ₂ : FTy} (l : FVec Ideal S512x4096 φ₁) (r : FVec Ideal S4096x256 φ₂) (p : Fin 512) (q : Fin 256) :
    matmul (F := Ideal) dot_S512x4096_S4096x256_S512x256_1_0_0_1_n_n none l r (constant (F := Ideal) S512x256 .f32 0x00000000#32) (ix2 p q)
      = ∑ k : Fin 4096, l (ix2 p k) * r (ix2 k q) := by
  simp only [matmul]
  rw [Ideal.matmul_constant_zero_apply, ← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhs_adjB_0 _ _
    | ⟨1, _⟩ => exact (lhs_adjB_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhs_adjB_0 _ _).trans hk
    | ⟨1, _⟩ => exact rhs_adjB_1 _ _)
  rw [el, er]

/-! ### The second product: the [512, 128] left half of the first product times the [128, 4096] array wenc. -/

theorem lhs_latent_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem lhs_latent_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs_latent_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs_latent_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-- Into the zero accumulator, entry (p, q) of the product is the sum over k of left(p, k) * right(k, q). -/
theorem matmul_latent_apply {φ₁ φ₂ : FTy} (l : FVec Ideal S512x128 φ₁) (r : FVec Ideal S128x4096 φ₂) (p : Fin 512) (q : Fin 4096) :
    matmul (F := Ideal) dot_S512x128_S128x4096_S512x4096_1_0_0_1_n_n none l r (constant (F := Ideal) S512x4096 .f32 0x00000000#32) (ix2 p q)
      = ∑ k : Fin 128, l (ix2 p k) * r (ix2 k q) := by
  simp only [matmul]
  rw [Ideal.matmul_constant_zero_apply, ← Equiv.sum_comp (ValueIdx.contrEquiv1 dot_S512x128_S128x4096_S512x4096_1_0_0_1_n_n 128 rfl rfl).symm]
  refine Finset.sum_congr rfl fun k _ => ?_
  have hk := ValueIdx.contrEquiv1_symm_val dot_S512x128_S128x4096_S512x4096_1_0_0_1_n_n 128 rfl rfl k
  have el : dot_S512x128_S128x4096_S512x4096_1_0_0_1_n_n.lhsIdx (ix2 p q) ((ValueIdx.contrEquiv1 dot_S512x128_S128x4096_S512x4096_1_0_0_1_n_n 128 rfl rfl).symm k) = ix2 p k := funext fun a => Fin.ext (by
    match a with
    | ⟨0, _⟩ => exact lhs_latent_0 _ _
    | ⟨1, _⟩ => exact (lhs_latent_1 _ _).trans hk)
  have er : dot_S512x128_S128x4096_S512x4096_1_0_0_1_n_n.rhsIdx (ix2 p q) ((ValueIdx.contrEquiv1 dot_S512x128_S128x4096_S512x4096_1_0_0_1_n_n 128 rfl rfl).symm k) = ix2 k q := funext fun a => Fin.ext (by
    match a with
    | ⟨0, _⟩ => exact (rhs_latent_0 _ _).trans hk
    | ⟨1, _⟩ => exact rhs_latent_1 _ _)
  rw [el, er]

/-! ### The third product: the [128, 4096] array wenc times a [4096, 128] array. -/

theorem lhs_wencAdjWdec_0 (i : S128x128.Idx) (q : dot_S128x4096_S4096x128_S128x128_1_0_0_1_n_n.contr.Idx) :
    (dot_S128x4096_S4096x128_S128x128_1_0_0_1_n_n.lhsIdx i q 0).val = (i 0).val := by
  unfold DotDims.lhsIdx
  rw [dif_neg (show ¬(0 : Fin S128x4096.rank) ∈ dot_S128x4096_S4096x128_S128x128_1_0_0_1_n_n.lhsBatch by decide), dif_pos (show (0 : Fin S128x4096.rank) ∈ dot_S128x4096_S4096x128_S128x128_1_0_0_1_n_n.lhsNonContracting by decide)]
  rfl
theorem lhs_wencAdjWdec_1 (i : S128x128.Idx) (q : dot_S128x4096_S4096x128_S128x128_1_0_0_1_n_n.contr.Idx) :
    (dot_S128x4096_S4096x128_S128x128_1_0_0_1_n_n.lhsIdx i q 1).val = (q ⟨0, by decide⟩).val :=
  dot_S128x4096_S4096x128_S128x128_1_0_0_1_n_n.lhsIdx_val_of_single rfl i q
theorem rhs_wencAdjWdec_0 (i : S128x128.Idx) (q : dot_S128x4096_S4096x128_S128x128_1_0_0_1_n_n.contr.Idx) :
    (dot_S128x4096_S4096x128_S128x128_1_0_0_1_n_n.rhsIdx i q 0).val = (q ⟨0, by decide⟩).val :=
  dot_S128x4096_S4096x128_S128x128_1_0_0_1_n_n.rhsIdx_val_of_single rfl i q
theorem rhs_wencAdjWdec_1 (i : S128x128.Idx) (q : dot_S128x4096_S4096x128_S128x128_1_0_0_1_n_n.contr.Idx) :
    (dot_S128x4096_S4096x128_S128x128_1_0_0_1_n_n.rhsIdx i q 1).val = (i 1).val := by
  unfold DotDims.rhsIdx
  rw [dif_neg (show ¬(1 : Fin S4096x128.rank) ∈ dot_S128x4096_S4096x128_S128x128_1_0_0_1_n_n.rhsBatch by decide), dif_pos (show (1 : Fin S4096x128.rank) ∈ dot_S128x4096_S4096x128_S128x128_1_0_0_1_n_n.rhsNonContracting by decide)]
  rfl

/-- Into the zero accumulator, entry (p, q) of the product is the sum over k of left(p, k) * right(k, q). -/
theorem matmul_wencAdjWdec_apply {φ₁ φ₂ : FTy} (l : FVec Ideal S128x4096 φ₁) (r : FVec Ideal S4096x128 φ₂) (p : Fin 128) (q : Fin 128) :
    matmul (F := Ideal) dot_S128x4096_S4096x128_S128x128_1_0_0_1_n_n none l r (constant (F := Ideal) S128x128 .f32 0x00000000#32) (ix2 p q)
      = ∑ k : Fin 4096, l (ix2 p k) * r (ix2 k q) := by
  simp only [matmul]
  rw [Ideal.matmul_constant_zero_apply, ← Equiv.sum_comp (ValueIdx.contrEquiv1 dot_S128x4096_S4096x128_S128x128_1_0_0_1_n_n 4096 rfl rfl).symm]
  refine Finset.sum_congr rfl fun k _ => ?_
  have hk := ValueIdx.contrEquiv1_symm_val dot_S128x4096_S4096x128_S128x128_1_0_0_1_n_n 4096 rfl rfl k
  have el : dot_S128x4096_S4096x128_S128x128_1_0_0_1_n_n.lhsIdx (ix2 p q) ((ValueIdx.contrEquiv1 dot_S128x4096_S4096x128_S128x128_1_0_0_1_n_n 4096 rfl rfl).symm k) = ix2 p k := funext fun a => Fin.ext (by
    match a with
    | ⟨0, _⟩ => exact lhs_wencAdjWdec_0 _ _
    | ⟨1, _⟩ => exact (lhs_wencAdjWdec_1 _ _).trans hk)
  have er : dot_S128x4096_S4096x128_S128x128_1_0_0_1_n_n.rhsIdx (ix2 p q) ((ValueIdx.contrEquiv1 dot_S128x4096_S4096x128_S128x128_1_0_0_1_n_n 4096 rfl rfl).symm k) = ix2 k q := funext fun a => Fin.ext (by
    match a with
    | ⟨0, _⟩ => exact (rhs_wencAdjWdec_0 _ _).trans hk
    | ⟨1, _⟩ => exact rhs_wencAdjWdec_1 _ _)
  rw [el, er]

/-! ### The fourth product: a [4096, 128] array times a [128, 128] array. -/

theorem lhs_recon_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_recon_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_recon_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_recon_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into the zero accumulator, entry (p, q) of the product is the sum over k of left(p, k) * right(k, q). -/
theorem matmul_recon_apply {φ₁ φ₂ : FTy} (l : FVec Ideal S4096x128 φ₁) (r : FVec Ideal S128x128 φ₂) (p : Fin 4096) (q : Fin 128) :
    matmul (F := Ideal) dot_S4096x128_S128x128_S4096x128_1_0_0_1_n_n none l r (constant (F := Ideal) S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_recon_0 _ _
    | ⟨1, _⟩ => exact (lhs_recon_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_recon_0 _ _).trans hk
    | ⟨1, _⟩ => exact rhs_recon_1 _ _)
  rw [el, er]

/-! ## The four payloads -/

/-- Payload 1 at (r, q): the sum over l of x0(r, l) * x1(l, q). -/
theorem pay1_apply (x0 : Vec Ideal S512x4096 .f32) (x1 : Vec Ideal S4096x256 .bf16) (r : Fin 512) (q : Fin 256) :
    k0_pay1 (F := Ideal) x0 x1 (ix2 r q) = ∑ l : Fin 4096, x0 (ix2 r l) * x1 (ix2 l q) := by
  unfold k0_pay1
  rw [shapeCast_self]
  exact matmul_adjB_apply (φ₁ := .f32) (φ₂ := .bf16) x0 x1 r q

/-- Payload 2 is payload 1 under a shape cast to its own shape. -/
theorem pay2_apply (x0 : Vec Ideal S512x4096 .f32) (x1 : Vec Ideal S4096x256 .bf16) (r : Fin 512) (q : Fin 256) :
    k0_pay2 (F := Ideal) x0 x1 (ix2 r q) = ∑ l : Fin 4096, x0 (ix2 r l) * x1 (ix2 l q) := by
  unfold k0_pay2
  rw [shapeCast_self]
  exact pay1_apply x0 x1 r q

/-- The left 128 columns of a [512, 256] array: column k of the slice is column k of the array. -/
theorem slice_left_apply (y : FVec Ideal S512x256 .f32) (r : Fin 512) (k : Fin 128) :
    extractStridedSlice S512x128 ![0, 0] y slices_S512x256_o0_0_S512x128 (ix2 r k)
      = y (ix2 r (⟨k.val, by omega⟩ : Fin 256)) :=
  extractStridedSlice_apply ![0, 0] y slices_S512x256_o0_0_S512x128 (ix2 r k) (ix2 r (⟨k.val, by omega⟩ : Fin 256))
    (fun a => by
      match a with
      | ⟨0, _⟩ => exact (Nat.zero_add _).symm
      | ⟨1, _⟩ => exact (Nat.zero_add _).symm)

/-- Payload 3 at (r, j): the sum over k < 128 of payload 1 at (r, k) times x2(k, j). -/
theorem pay3_apply (x0 : Vec Ideal S512x4096 .f32) (x1 : Vec Ideal S4096x256 .bf16) (x2 : Vec Ideal S128x4096 .bf16)
    (r : Fin 512) (j : Fin 4096) :
    k0_pay3 (F := Ideal) x0 x1 x2 (ix2 r j)
      = ∑ k : Fin 128, (∑ l : Fin 4096, x0 (ix2 r l) * x1 (ix2 l (⟨k.val, by omega⟩ : Fin 256))) * x2 (ix2 k j) := by
  unfold k0_pay3
  rw [shapeCast_self]
  refine (matmul_latent_apply (φ₁ := .f32) (φ₂ := .bf16) _ x2 r j).trans ?_
  refine Finset.sum_congr rfl fun k _ => ?_
  rw [slice_left_apply, pay1_apply]

/-- Payload 4 at (i, j): the sum over k of v17(i, k) times the sum over l of v19(k, l) * v18(l, j). -/
theorem pay4_apply (v17 v18 : Vec Ideal S4096x128 .f32) (v19 : Vec Ideal S128x4096 .bf16) (i : Fin 4096) (j : Fin 128) :
    k0_pay4 (F := Ideal) v17 v18 v19 (ix2 i j)
      = ∑ k : Fin 128, v17 (ix2 i k) * (∑ l : Fin 4096, v19 (ix2 k l) * v18 (ix2 l j)) := by
  unfold k0_pay4
  rw [shapeCast_self]
  refine (matmul_recon_apply (φ₁ := .f32) (φ₂ := .f32) v17 _ i j).trans ?_
  refine Finset.sum_congr rfl fun k _ => ?_
  rw [matmul_wencAdjWdec_apply (φ₁ := .f32) (φ₂ := .f32) _ v18 k j]
  rfl

/-! ## The two arrays the host writes before the region -/

/-- The host's narrowed copy of wenc is wenc: narrowing the format is the identity on extended reals. -/
theorem V_wenc (m : (ℓ : Loc nD τ sig) → Buf (Elt Ideal) ℓ) (c : Dev nD) :
    (V (F := Ideal) m c main_call0_v2 : S128x4096.Idx → EReal) = m ((c : Thread nD τ).loc main_arg2) := by
  dsimp only [Gen.V, Gen.hostOps0]
  after_results
  rfl

/-- The array b at (l, q): feat(l, q) in the left 128 columns, wdec(l, q - 128) in the right 128. -/
theorem V_b_apply (m : (ℓ : Loc nD τ sig) → Buf (Elt Ideal) ℓ) (c : Dev nD) (l : Fin 4096) (q : Fin 256) :
    (V (F := Ideal) m c main_call0_v1 : S4096x256.Idx → EReal) (ix2 l q)
      = if h : q.val < 128 then m ((c : Thread nD τ).loc main_arg0) (ix2 l (⟨q.val, h⟩ : Fin 128))
        else m ((c : Thread nD τ).loc main_arg3) (ix2 l (⟨q.val - 128, by omega⟩ : Fin 128)) := by
  have e : (V (F := Ideal) m c main_call0_v1 : S4096x256.Idx → EReal)
      = concatenate S4096x256 1
          [⟨S4096x128, (m ((c : Thread nD τ).loc main_arg0) : S4096x128.Idx → EReal)⟩,
           ⟨S4096x128, (m ((c : Thread nD τ).loc main_arg3) : S4096x128.Idx → EReal)⟩]
          concatenates_S4096x128_S4096x128_S4096x256_d1 := by
    dsimp only [Gen.V, Gen.hostOps0]
    after_results
    rfl
  rw [e]
  split
  · next h =>
    exact concatenate_pair_apply_left (t := S4096x256) (s₁ := S4096x128) (s₂ := S4096x128) 1 _ _ _ (ix2 l q) rfl (ix2 l (⟨q.val, h⟩ : Fin 128))
      (fun b => by match b with | ⟨0, _⟩ => rfl | ⟨1, _⟩ => rfl)
  · next h =>
    exact concatenate_pair_apply_right (t := S4096x256) (s₁ := S4096x128) (s₂ := S4096x128) 1 _ _ _ (ix2 l q) rfl rfl (ix2 l (⟨q.val - 128, by omega⟩ : Fin 128))
      (fun b hb => by
        match b, hb with
        | ⟨0, _⟩, _ => rfl
        | ⟨1, _⟩, hb => exact absurd rfl hb)
      (by show (q.val - 128) + 128 = q.val; omega)

end Cert.KernelIdeal.Pay

end
-- ==== Proof.Final.lean ====
/-
  From blocks to the arrays, over the extended reals.

  Point t of the eight-point grid is handed rows [512 t, 512 t + 512) of adj and the whole of b and wenc, where b is
  the [4096, 256] array whose left 128 columns are feat and whose right 128 columns are wdec. Read at an index:
    * the block of adj at (r, l) is adj(512 t + r, l); the blocks of b and wenc are the arrays themselves;
    * the full scratch at (i, q) is the sum over l of adj(i, l) * b(l, q), so its left half is adj * feat and its
      right half is adj * wdec;
    * the first result's block at point t, at (r, j), is ((adj * feat) * wenc)(512 t + r, j);
    * the second result, stored at the last point, at (i, j) is ((adj * feat) * (wenc * (adj * wdec)))(i, j).
  The eight row blocks of the first result tile its array (row i lies in block i / 512), and the one block of the
  second result is its whole array, written back at the last point. So each array ends holding the kernel's product.
-/
import proofs.«150679_g65627100283412_cont_sun_m_691_11_alg».proof.Proof.KVals
import proofs.«150679_g65627100283412_cont_sun_m_691_11_alg».proof.Proof.Payload
import proofs.«150679_g65627100283412_cont_sun_m_691_11_alg».proof.Proof.Spec
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem row_lt (t : Fin cfg0.N) (r : Fin 512) : 512 * t.val + r.val < 4096 := by
  have h8 : cfg0.N = 8 := N8; have := t.isLt; have := r.isLt; omega

/-- The block of adj at point t, read at (r, l). -/
theorem ablk_apply (t : Fin cfg0.N) (r : Fin 512) (l : Fin 4096) :
    ablk (F := Ideal) m c t (ix2 r l)
      = (m ((c : Thread nD τ).loc main_arg1) : S4096x4096.Idx → EReal) (ix2 (⟨512 * t.val + r.val, row_lt t r⟩ : Fin 4096) l) := by
  show (V (F := Ideal) m c main_arg1 : S4096x4096.Idx → EReal) (((cfg0.win 0).blk t).view.emb (ix2 r l)) = _
  rw [V_main_arg1]
  congr 1
  funext a; apply Fin.ext
  obtain ⟨e0, e1⟩ := idx0 t
  match a with
  | ⟨0, _⟩ => show win0_0.index t (0 : Fin 2) * 512 + 1 * r.val = 512 * t.val + r.val; omega
  | ⟨1, _⟩ => show win0_0.index t (1 : Fin 2) * 4096 + 1 * l.val = l.val; omega

theorem bblk_eq (t : Fin cfg0.N) : bblk (F := Ideal) m c t = (V (F := Ideal) m c main_call0_v1 : S4096x256.Idx → EReal) := by
  funext y
  show (V (F := Ideal) m c main_call0_v1 : S4096x256.Idx → EReal) (((cfg0.win 1).blk t).view.emb y) = _
  congr 1
  funext a; apply Fin.ext
  obtain ⟨e0, e1⟩ := idx1 t
  match a with
  | ⟨0, _⟩ => show win0_1.index t (0 : Fin 2) * 4096 + 1 * (y 0).val = (y 0).val; omega
  | ⟨1, _⟩ => show win0_1.index t (1 : Fin 2) * 256 + 1 * (y 1).val = (y 1).val; omega

theorem wblk_eq (t : Fin cfg0.N) : wblk (F := Ideal) m c t = (V (F := Ideal) m c main_call0_v2 : S128x4096.Idx → EReal) := by
  funext y
  show (V (F := Ideal) m c main_call0_v2 : S128x4096.Idx → EReal) (((cfg0.win 2).blk t).view.emb y) = _
  congr 1
  funext a; apply Fin.ext
  obtain ⟨e0, e1⟩ := idx2 t
  match a with
  | ⟨0, _⟩ => show win0_2.index t (0 : Fin 2) * 128 + 1 * (y 0).val = (y 0).val; omega
  | ⟨1, _⟩ => show win0_2.index t (1 : Fin 2) * 4096 + 1 * (y 1).val = (y 1).val; omega

/-- The four argument arrays, as the launch finds them. -/
abbrev feat : Cert.Spec.Arr 4096 128 := m ((c : Thread nD τ).loc main_arg0)
abbrev adj : Cert.Spec.Arr 4096 4096 := m ((c : Thread nD τ).loc main_arg1)
abbrev wenc : Cert.Spec.Arr 128 4096 := m ((c : Thread nD τ).loc main_arg2)
abbrev wdec : Cert.Spec.Arr 4096 128 := m ((c : Thread nD τ).loc main_arg3)

/-- Point t's product at (r, q): row 512 t + r of adj against column q of b. -/
theorem abAt_apply (t : Fin cfg0.N) (r : Fin 512) (q : Fin 256) :
    abAt (F := Ideal) m c t (ix2 r q)
      = ∑ l : Fin 4096, adj m c (ix2 (⟨512 * t.val + r.val, row_lt t r⟩ : Fin 4096) l)
          * (V (F := Ideal) m c main_call0_v1 : S4096x256.Idx → EReal) (ix2 l q) := by
  unfold abAt
  rw [Pay.pay2_apply]
  refine Finset.sum_congr rfl fun l _ => ?_
  rw [ablk_apply, bblk_eq]

/-- The full scratch at (i, q): row i of adj against column q of b. -/
theorem scrFull_apply (i : Fin 4096) (q : Fin 256) :
    scrFull (F := Ideal) m c (ix2 i q)
      = ∑ l : Fin 4096, adj m c (ix2 i l) * (V (F := Ideal) m c main_call0_v1 : S4096x256.Idx → EReal) (ix2 l q) := by
  have h8 : cfg0.N = 8 := N8
  have hi := i.isLt
  have e := abAt_apply m c (⟨i.val / 512, by omega⟩ : Fin cfg0.N) (⟨i.val % 512, Nat.mod_lt _ (by decide)⟩ : Fin 512) q
  have ei : (⟨512 * (i.val / 512) + i.val % 512, row_lt (⟨i.val / 512, by omega⟩ : Fin cfg0.N) (⟨i.val % 512, Nat.mod_lt _ (by decide)⟩ : Fin 512)⟩ : Fin 4096) = i :=
    Fin.ext (Nat.div_add_mod _ _)
  rw [ei] at e
  exact e

/-- The left 128 columns of the full scratch are adj * feat. -/
theorem scr_left (i : Fin 4096) (k : Fin 128) :
    scrFull (F := Ideal) m c (ix2 i (⟨k.val, by omega⟩ : Fin 256)) = Cert.Spec.mm (adj m c) (feat m c) (ix2 i k) := by
  rw [scrFull_apply, Cert.Spec.mm_ix2]
  refine Finset.sum_congr rfl fun l _ => ?_
  rw [Pay.V_b_apply, dif_pos k.isLt]

/-- The right 128 columns of the full scratch are adj * wdec. -/
theorem scr_right (i : Fin 4096) (j : Fin 128) :
    scrFull (F := Ideal) m c (ix2 i (⟨128 + j.val, by omega⟩ : Fin 256)) = Cert.Spec.mm (adj m c) (wdec m c) (ix2 i j) := by
  rw [scrFull_apply, Cert.Spec.mm_ix2]
  refine Finset.sum_congr rfl fun l _ => ?_
  rw [Pay.V_b_apply, dif_neg (show ¬ (128 + j.val < 128) by omega)]
  congr 3
  apply Fin.ext
  show 128 + j.val - 128 = j.val
  omega

/-- The first result's block at point t, at (r, j), is the kernel's first result at (512 t + r, j). -/
theorem out3_apply (t : Fin cfg0.N) (r : Fin 512) (j : Fin 4096) :
    out3 (F := Ideal) m c t (ix2 r j)
      = Cert.Spec.latentK (feat m c) (adj m c) (wenc m c) (ix2 (⟨512 * t.val + r.val, row_lt t r⟩ : Fin 4096) j) := by
  unfold out3 Cert.Spec.latentK
  rw [Pay.pay3_apply, Cert.Spec.mm_ix2]
  refine Finset.sum_congr rfl fun k _ => ?_
  rw [Cert.Spec.mm_ix2, wblk_eq, Pay.V_wenc]
  congr 1
  refine Finset.sum_congr rfl fun l _ => ?_
  rw [ablk_apply, bblk_eq, Pay.V_b_apply, dif_pos k.isLt]

/-- A load of the left 128 columns reads column k at column k. -/
theorem ld_left (X : Vec Ideal S4096x256 .f32) (i : Fin 4096) (k : Fin 128) :
    View.ld X (Rect.unit (s := S4096x256) ![0, 0] S4096x128.size inb_S4096x256_S4096x128_0_0) (ix2 i k)
      = X (ix2 i (⟨k.val, by omega⟩ : Fin 256)) := by
  show X _ = X _
  congr 1
  funext a; apply Fin.ext
  match a with
  | ⟨0, _⟩ => show 0 + 1 * i.val = i.val; omega
  | ⟨1, _⟩ => show 0 + 1 * k.val = k.val; omega

/-- A load of the right 128 columns reads column 128 + j at column j. -/
theorem ld_right (X : Vec Ideal S4096x256 .f32) (l : Fin 4096) (j : Fin 128) :
    View.ld X (Rect.unit (s := S4096x256) ![0, 128] S4096x128.size inb_S4096x256_S4096x128_0_128) (ix2 l j)
      = X (ix2 l (⟨128 + j.val, by omega⟩ : Fin 256)) := by
  show X _ = X _
  congr 1
  funext a; apply Fin.ext
  match a with
  | ⟨0, _⟩ => show 0 + 1 * l.val = l.val; omega
  | ⟨1, _⟩ => show 128 + 1 * j.val = 128 + j.val; omega

/-- The second result as the last point stores it is the kernel's second result. -/
theorem out4_apply (t : Fin cfg0.N) (i : Fin 4096) (j : Fin 128) :
    out4 (F := Ideal) m c t (ix2 i j)
      = Cert.Spec.reconK (feat m c) (adj m c) (wenc m c) (wdec m c) (ix2 i j) := by
  unfold out4 Cert.Spec.reconK
  rw [Pay.pay4_apply, Cert.Spec.mm_ix2]
  refine Finset.sum_congr rfl fun k _ => ?_
  rw [ld_left, scr_left, Cert.Spec.mm_ix2 (wenc m c)]
  congr 1
  refine Finset.sum_congr rfl fun l _ => ?_
  rw [ld_right, scr_right, wblk_eq, Pay.V_wenc]

/-! ## From blocks to the arrays -/

/-- An index of the first result is in point t's block iff each coordinate is in the block's range on its axis. -/
theorem mem_blk3 (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v0_0).slice (win0_3.rect t)).set ↔ _
  rw [View.set_slice_whole, Rect.mem_set_unit]
  exact Iff.rfl

/-- An index of the second result is in point t's block iff each coordinate is in the block's range on its axis. -/
theorem mem_blk4 (t : Fin cfg0.N) (i : S4096x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v0_1).slice (win0_4.rect t)).set ↔ _
  rw [View.set_slice_whole, Rect.mem_set_unit]
  exact Iff.rfl

/-- What point t writes back into the first result is block t of the kernel's first result. -/
theorem flushed3_eq (dat : Dat τ (Elt Ideal) Unit ℕ (UR sig nD τ) ℕ cfg0 c)
    (h3 : ∀ t, dat.after 3 t = out3 (F := Ideal) m c t) (t : Fin cfg0.N) :
    dat.flushed 3 t
      = ((cfg0.win 3).blk t).view.read (Elt Ideal) (Cert.Spec.latentK (feat m c) (adj m c) (wenc m c)) := by
  show (cfg0.win 3).cut (grid0.coords t) (dat.after 3 t) = _
  rw [h3]
  show out3 (F := Ideal) m c t = _
  funext y
  obtain ⟨r, j, rfl⟩ : ∃ (r : Fin 512) (j : Fin 4096), y = ix2 r j := ⟨y 0, y 1, eq_ix2 y⟩
  rw [out3_apply]
  show Cert.Spec.latentK (feat m c) (adj m c) (wenc m c) _
    = Cert.Spec.latentK (feat m c) (adj m c) (wenc m c) (((cfg0.win 3).blk t).view.emb (ix2 r j))
  congr 1
  funext a; apply Fin.ext
  obtain ⟨e0, e1⟩ := idx3 t
  match a with
  | ⟨0, _⟩ => show 512 * t.val + r.val = win0_3.index t (0 : Fin 2) * 512 + 1 * r.val; omega
  | ⟨1, _⟩ => show j.val = win0_3.index t (1 : Fin 2) * 4096 + 1 * j.val; omega

/-- What the last point writes back into the second result is the kernel's second result. -/
theorem flushed4_eq (dat : Dat τ (Elt Ideal) Unit ℕ (UR sig nD τ) ℕ cfg0 c)
    (h4 : ∀ t : Fin cfg0.N, t.val = 7 → dat.after 4 t = out4 (F := Ideal) m c t)
    (t : Fin cfg0.N) (hf : (cfg0.win 4).flush t = true) :
    dat.flushed 4 t
      = ((cfg0.win 4).blk t).view.read (Elt Ideal) (Cert.Spec.reconK (feat m c) (adj m c) (wenc m c) (wdec m c)) := by
  have h8 : cfg0.N = 8 := N8
  have h7 : t.val = 7 := by have := (flush0_4 t).mp hf; have := t.isLt; omega
  show (cfg0.win 4).cut (grid0.coords t) (dat.after 4 t) = _
  rw [h4 t h7]
  show out4 (F := Ideal) m c t = _
  funext y
  obtain ⟨i, j, rfl⟩ : ∃ (i : Fin 4096) (j : Fin 128), y = ix2 i j := ⟨y 0, y 1, eq_ix2 y⟩
  rw [out4_apply]
  show Cert.Spec.reconK (feat m c) (adj m c) (wenc m c) (wdec m c) _
    = Cert.Spec.reconK (feat m c) (adj m c) (wenc m c) (wdec m c) (((cfg0.win 4).blk t).view.emb (ix2 i j))
  congr 1
  funext a; apply Fin.ext
  obtain ⟨e0, e1⟩ := idx4 t
  match a with
  | ⟨0, _⟩ => show i.val = win0_4.index t (0 : Fin 2) * 4096 + 1 * i.val; omega
  | ⟨1, _⟩ => show j.val = win0_4.index t (1 : Fin 2) * 128 + 1 * j.val; omega

/-- The first result after the run: the eight row blocks tile it, and each holds its block of (adj * feat) * wenc. -/
theorem latent_final (dat : Dat τ (Elt Ideal) Unit ℕ (UR sig nD τ) ℕ cfg0 c)
    (h3 : ∀ t, dat.after 3 t = out3 (F := Ideal) m c t) :
    (dat.arrAt 3 cfg0.N : S4096x4096.Idx → EReal)
      = Cert.Spec.latentK (m ((c : Thread nD τ).loc main_arg0)) (m ((c : Thread nD τ).loc main_arg1))
          (m ((c : Thread nD τ).loc main_arg2)) :=
  dat.arrAt_eq_of_cover 3 (Cert.Spec.latentK (feat m c) (adj m c) (wenc m c)) (fun t _ => flushed3_eq m c dat h3 t) fun i => by
    have h8 : cfg0.N = 8 := N8
    have hi0 : (i 0).val < 4096 := (i 0).isLt
    have hi1 : (i 1).val < 4096 := (i 1).isLt
    refine ⟨⟨(i 0).val / 512, by omega⟩, flush0_3 _, ?_⟩
    rw [mem_blk3]
    obtain ⟨e0, e1⟩ := idx3 (⟨(i 0).val / 512, by omega⟩ : Fin cfg0.N)
    intro a
    match a with
    | ⟨0, _⟩ =>
      show win0_3.index (⟨(i 0).val / 512, by omega⟩ : Fin cfg0.N) (0 : Fin 2) * 512 ≤ (i 0).val
        ∧ (i 0).val < win0_3.index (⟨(i 0).val / 512, by omega⟩ : Fin cfg0.N) (0 : Fin 2) * 512 + 512
      rw [e0]; show (i 0).val / 512 * 512 ≤ (i 0).val ∧ (i 0).val < (i 0).val / 512 * 512 + 512; omega
    | ⟨1, _⟩ =>
      show win0_3.index (⟨(i 0).val / 512, by omega⟩ : Fin cfg0.N) (1 : Fin 2) * 4096 ≤ (i 1).val
        ∧ (i 1).val < win0_3.index (⟨(i 0).val / 512, by omega⟩ : Fin cfg0.N) (1 : Fin 2) * 4096 + 4096
      rw [e1]; omega

/-- The second result after the run: the last point's one block is the whole array and holds
    (adj * feat) * (wenc * (adj * wdec)). -/
theorem recon_final (dat : Dat τ (Elt Ideal) Unit ℕ (UR sig nD τ) ℕ cfg0 c)
    (h4 : ∀ t : Fin cfg0.N, t.val = 7 → dat.after 4 t = out4 (F := Ideal) m c t) :
    (dat.arrAt 4 cfg0.N : S4096x128.Idx → EReal)
      = Cert.Spec.reconK (m ((c : Thread nD τ).loc main_arg0)) (m ((c : Thread nD τ).loc main_arg1))
          (m ((c : Thread nD τ).loc main_arg2)) (m ((c : Thread nD τ).loc main_arg3)) :=
  dat.arrAt_eq_of_cover 4 (Cert.Spec.reconK (feat m c) (adj m c) (wenc m c) (wdec m c)) (flushed4_eq m c dat h4) fun i => by
    have hi0 : (i 0).val < 4096 := (i 0).isLt
    have hi1 : (i 1).val < 128 := (i 1).isLt
    refine ⟨t0_7, (flush0_4 t0_7).mpr rfl, ?_⟩
    rw [mem_blk4]
    obtain ⟨e0, e1⟩ := idx4 t0_7
    intro a
    match a with
    | ⟨0, _⟩ =>
      show win0_4.index t0_7 (0 : Fin 2) * 4096 ≤ (i 0).val ∧ (i 0).val < win0_4.index t0_7 (0 : Fin 2) * 4096 + 4096
      rw [e0]; omega
    | ⟨1, _⟩ =>
      show win0_4.index t0_7 (1 : Fin 2) * 128 ≤ (i 1).val ∧ (i 1).val < win0_4.index t0_7 (1 : Fin 2) * 128 + 128
      rw [e1]; omega

end Cert.KernelIdeal.Final

end
-- ==== Proof.RefSide.lean ====
import proofs.«150679_g65627100283412_cont_sun_m_691_11_alg».proof.Defs
import proofs.«150679_g65627100283412_cont_sun_m_691_11_alg».proof.Proof.Gen.ReferenceIdeal.Run
import proofs.«150679_g65627100283412_cont_sun_m_691_11_alg».proof.Proof.Gen.ReferenceIdeal.Read
import proofs.«150679_g65627100283412_cont_sun_m_691_11_alg».proof.Proof.Spec
import Idealize.ShloMosaic.Lib.ValueIdx

/-
  The reference's two results are the matrix products of the specification.

  Each of the reference's four stages is a contraction of the second axis of its left operand with the first axis of
  its right operand, that is a matrix product: entry (p, q) is the sum over k of left(p, k) * right(k, q). Reading the
  four stages one after the other gives
      stage 0 = feat * wenc,  stage 1 = adj * (feat * wenc),  stage 2 = adj * wdec,
      stage 3 = (adj * (feat * wenc)) * (adj * wdec),
  which are `latentR` (stage 1) and `reconR` (stage 3).
-/

noncomputable section

open scoped BigOperators

namespace Cert.RefSide

open Cert.ReferenceIdeal Cert.ReferenceIdeal.Read Cert.Spec Idealize.ShloMosaic Idealize.ShloMosaic.ValueIdx

/-- Stage 0 is the product feat * wenc. -/
theorem v0_mm (x0 : Arr 4096 128) (x2 : Arr 128 4096) :
    val_main_v0 (F := Ideal) x0 x2 = mm x0 x2 := by
  funext i
  obtain ⟨p, q, rfl⟩ : ∃ p q, i = ix2 p q := ⟨i 0, i 1, eq_ix2 i⟩
  rw [val_main_v0_apply, mm_ix2]
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-- Stage 2 is the product adj * wdec. -/
theorem v2_mm (x1 : Arr 4096 4096) (x3 : Arr 4096 128) :
    val_main_v2 (F := Ideal) x1 x3 = mm x1 x3 := by
  funext i
  obtain ⟨p, q, rfl⟩ : ∃ p q, i = ix2 p q := ⟨i 0, i 1, eq_ix2 i⟩
  rw [val_main_v2_apply, mm_ix2]
  refine Finset.sum_congr rfl fun k _ => ?_
  have el : lidx_main_v2 (ix2 p q) k = ix2 p k :=
    funext fun a => Fin.ext (by match a with | ⟨0, _⟩ => rfl | ⟨1, _⟩ => rfl)
  have er : ridx_main_v2 (ix2 p q) k = ix2 k q :=
    funext fun a => Fin.ext (by match a with | ⟨0, _⟩ => rfl | ⟨1, _⟩ => rfl)
  rw [el, er]

/-- Stage 1 is the product adj * (feat * wenc). -/
theorem v1_mm (x0 : Arr 4096 128) (x1 : Arr 4096 4096) (x2 : Arr 128 4096) :
    val_main_v1 (F := Ideal) x0 x1 x2 = mm x1 (mm x0 x2) := by
  funext i
  obtain ⟨p, q, rfl⟩ : ∃ p q, i = ix2 p q := ⟨i 0, i 1, eq_ix2 i⟩
  rw [val_main_v1_apply, v0_mm, mm_ix2]
  refine Finset.sum_congr rfl fun k _ => ?_
  have el : lidx_main_v1 (ix2 p q) k = ix2 p k :=
    funext fun a => Fin.ext (by match a with | ⟨0, _⟩ => rfl | ⟨1, _⟩ => rfl)
  have er : ridx_main_v1 (ix2 p q) k = ix2 k q :=
    funext fun a => Fin.ext (by match a with | ⟨0, _⟩ => rfl | ⟨1, _⟩ => rfl)
  rw [el, er]

/-- Stage 3 is the product of stage 1 and stage 2. -/
theorem v3_mm (x0 : Arr 4096 128) (x1 : Arr 4096 4096) (x2 : Arr 128 4096) (x3 : Arr 4096 128) :
    val_main_v3 (F := Ideal) x0 x1 x2 x3 = mm (mm x1 (mm x0 x2)) (mm x1 x3) := by
  funext i
  obtain ⟨p, q, rfl⟩ : ∃ p q, i = ix2 p q := ⟨i 0, i 1, eq_ix2 i⟩
  rw [val_main_v3_apply, v1_mm, v2_mm, mm_ix2]
  refine Finset.sum_congr rfl fun k _ => ?_
  have el : lidx_main_v3 (ix2 p q) k = ix2 p k :=
    funext fun a => Fin.ext (by match a with | ⟨0, _⟩ => rfl | ⟨1, _⟩ => rfl)
  have er : ridx_main_v3 (ix2 p q) k = ix2 k q :=
    funext fun a => Fin.ext (by match a with | ⟨0, _⟩ => rfl | ⟨1, _⟩ => rfl)
  rw [el, er]

/-- The reference's first result is adj * (feat * wenc). -/
theorem latent_ref (x0 : Cert.Spec.Arr 4096 128) (x1 : Cert.Spec.Arr 4096 4096) (x2 : Cert.Spec.Arr 128 4096) :
    Cert.ReferenceIdeal.Read.val_main_v1 (F := Ideal) x0 x1 x2 = Cert.Spec.latentR x0 x1 x2 :=
  v1_mm x0 x1 x2

/-- The reference's second result is (adj * (feat * wenc)) * (adj * wdec). -/
theorem recon_ref (x0 : Cert.Spec.Arr 4096 128) (x1 : Cert.Spec.Arr 4096 4096) (x2 : Cert.Spec.Arr 128 4096)
    (x3 : Cert.Spec.Arr 4096 128) :
    Cert.ReferenceIdeal.Read.val_main_v3 (F := Ideal) x0 x1 x2 x3 = Cert.Spec.reconR x0 x1 x2 x3 :=
  v3_mm x0 x1 x2 x3

end Cert.RefSide

end
-- ==== Proof.MatAlgebra.lean ====
/-
  Matrix products of arrays whose entries are all real numbers.

  Over the extended reals multiplication does not distribute over addition in general, so the product of
  matrices is not associative there. When every entry is (the image of) a real number, each entry of a
  product is the image of the real sum of real products, and associativity is the usual exchange of two
  finite sums over the reals.
-/
import proofs.«150679_g65627100283412_cont_sun_m_691_11_alg».proof.Proof.Spec
import Mathlib.Data.EReal.Basic
import Mathlib.Algebra.BigOperators.Ring.Finset

noncomputable section

open scoped BigOperators

namespace Cert.Spec

open Idealize.ShloMosaic Idealize.ShloMosaic.ValueIdx

/-- The image of a finite sum of reals is the sum of the images. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An entry of a product of two real-valued arrays is the image of the real sum of real products. -/
theorem mm_coe {a b c : Nat} {x : Arr a b} {y : Arr b c}
    (rx : (⟨2, ![a, b]⟩ : Shape).Idx → ℝ) (ry : (⟨2, ![b, c]⟩ : Shape).Idx → ℝ)
    (hx : ∀ i, x i = (rx i : EReal)) (hy : ∀ i, y i = (ry i : EReal)) (p : Fin a) (q : Fin c) :
    mm x y (ix2 p q) = ((∑ k : Fin b, rx (ix2 p k) * ry (ix2 k q) : ℝ) : EReal) := by
  rw [mm_ix2, coe_finset_sum]
  refine Finset.sum_congr rfl fun k _ => ?_
  rw [hx, hy, EReal.coe_mul]

/-- A product of two real-valued arrays is real-valued. -/
theorem isReal_mm {a b c : Nat} {x : Arr a b} {y : Arr b c} (hx : IsReal x) (hy : IsReal y) :
    IsReal (mm x y) := by
  choose rx hrx using hx
  choose ry hry using hy
  intro i
  obtain ⟨p, q, rfl⟩ : ∃ p q, i = ix2 p q := ⟨i 0, i 1, eq_ix2 i⟩
  exact ⟨_, mm_coe rx ry hrx hry p q⟩

/-- The matrix product of real-valued arrays is associative: both sides are, entry by entry, the image of
    the double sum over (j, k) of x(p, j) * y(j, k) * z(k, q). -/
theorem mm_assoc {a b c d : Nat} {x : Arr a b} {y : Arr b c} {z : Arr c d}
    (hx : IsReal x) (hy : IsReal y) (hz : IsReal z) : mm (mm x y) z = mm x (mm y z) := by
  choose rx hrx using hx
  choose ry hry using hy
  choose rz hrz using hz
  funext i
  obtain ⟨p, q, rfl⟩ : ∃ p q, i = ix2 p q := ⟨i 0, i 1, eq_ix2 i⟩
  rw [mm_ix2, mm_ix2]
  have hl : ∀ k : Fin c, mm x y (ix2 p k) * z (ix2 k q)
      = (((∑ j : Fin b, rx (ix2 p j) * ry (ix2 j k)) * rz (ix2 k q) : ℝ) : EReal) := by
    intro k
    rw [mm_coe rx ry hrx hry p k, hrz, EReal.coe_mul]
  have hr : ∀ j : Fin b, x (ix2 p j) * mm y z (ix2 j q)
      = ((rx (ix2 p j) * (∑ k : Fin c, ry (ix2 j k) * rz (ix2 k q)) : ℝ) : EReal) := by
    intro j
    rw [mm_coe ry rz hry hrz j q, hrx, EReal.coe_mul]
  rw [Finset.sum_congr rfl fun k _ => hl k, Finset.sum_congr rfl fun j _ => hr j,
    ← coe_finset_sum, ← coe_finset_sum]
  congr 1
  simp only [Finset.sum_mul, Finset.mul_sum]
  rw [Finset.sum_comm]
  refine Finset.sum_congr rfl fun j _ => Finset.sum_congr rfl fun k _ => ?_
  rw [mul_assoc]

/-- The kernel's and the reference's first results agree on real-valued arguments. -/
theorem latent_eq {feat : Arr 4096 128} {adj : Arr 4096 4096} {wenc : Arr 128 4096}
    (hf : IsReal feat) (ha : IsReal adj) (he : IsReal wenc) :
    latentK feat adj wenc = latentR feat adj wenc :=
  mm_assoc ha hf he

/-- The kernel's and the reference's second results agree on real-valued arguments:
    (adj * feat) * (wenc * Y) = ((adj * feat) * wenc) * Y = (adj * (feat * wenc)) * Y with Y = adj * wdec. -/
theorem recon_eq {feat : Arr 4096 128} {adj : Arr 4096 4096} {wenc : Arr 128 4096} {wdec : Arr 4096 128}
    (hf : IsReal feat) (ha : IsReal adj) (he : IsReal wenc) (hd : IsReal wdec) :
    reconK feat adj wenc wdec = reconR feat adj wenc wdec := by
  unfold reconK reconR latentR
  rw [← mm_assoc (isReal_mm ha hf) he (isReal_mm ha hd), mm_assoc ha hf he]

end Cert.Spec

end
-- ==== Proof.Finite.lean ====
/-
  The finiteness precondition, read back: every entry of the four argument arrays is a real number.

  The predicate is the conjunction, over the four arrays, of "every entry x has |x| < +infinity", each
  conjunct a reduction by "and" of the entrywise comparisons. Over the extended reals |x| is max x (-x),
  which is below the top element exactly when x is neither infinity.
-/
import proofs.«150679_g65627100283412_cont_sun_m_691_11_alg».proof.Pre_finite_inputs
import proofs.«150679_g65627100283412_cont_sun_m_691_11_alg».proof.Proof.Gen.Pre_finite_inputs
import proofs.«150679_g65627100283412_cont_sun_m_691_11_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has a single index. -/
instance : Subsingleton S_.Idx := ⟨fun _ _ => funext fun d => d.elim0⟩

/-- The bit pattern of +infinity denotes the top element. -/
theorem ofBits_inf : Ideal.ofBits .f32 0x7F800000#32 = (⊤ : EReal) := by
  simp [Ideal.ofBits, Ideal.ieee]

/-- An extended real whose absolute value max x (-x) is below the top element is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The entrywise comparison |x| < +infinity being 1 says x is a real number. -/
theorem real_of_cmp (x : EReal)
    (h : Ideal.cmp .olt (max x (-x)) (Ideal.ofBits .f32 0x7F800000#32) = 1#1) : ∃ r : ℝ, x = (r : EReal) := by
  rw [ofBits_inf] at h
  refine exists_real_of_abs_lt_top x ?_
  by_contra hn
  simp [Ideal.cmp, hn] at h

theorem isReal_of_fn [Cert.Pre_finite_inputs.Facts] (x0 : Cert.Spec.Arr 4096 128) (x1 : Cert.Spec.Arr 4096 4096)
    (x2 : Cert.Spec.Arr 128 4096) (x3 : Cert.Spec.Arr 4096 128)
    (h : Cert.Pre_finite_inputs.fn (F := Ideal) x0 x1 x2 x3 = fun _ => 1#1) :
    Cert.Spec.IsReal x0 ∧ Cert.Spec.IsReal x1 ∧ Cert.Spec.IsReal x2 ∧ Cert.Spec.IsReal x3 := by
  have h0 := congrFun h ix0
  dsimp only [fn, fn_part1] at h0
  change IntOp.andi (IntOp.andi (IntOp.andi _ _) _) _ = 1#1 at h0
  obtain ⟨h0, h4⟩ := IntOp.andi_eq_one.1 h0
  obtain ⟨h0, h3⟩ := IntOp.andi_eq_one.1 h0
  obtain ⟨h1, h2⟩ := IntOp.andi_eq_one.1 h0
  refine ⟨fun i => ?_, fun i => ?_, fun i => ?_, fun i => ?_⟩
  · exact real_of_cmp (x0 i) (Host.reduce_andi_all _ _ _ _ _ h1 i)
  · exact real_of_cmp (x1 i) (Host.reduce_andi_all _ _ _ _ _ h2 i)
  · exact real_of_cmp (x2 i) (Host.reduce_andi_all _ _ _ _ _ h3 i)
  · exact real_of_cmp (x3 i) (Host.reduce_andi_all _ _ _ _ _ h4 i)

end Cert.Finite

end
-- ==== Proof.Assemble.lean ====
import proofs.«150679_g65627100283412_cont_sun_m_691_11_alg».proof.Defs
import proofs.«150679_g65627100283412_cont_sun_m_691_11_alg».proof.Proof.Gen.Kernel
import proofs.«150679_g65627100283412_cont_sun_m_691_11_alg».proof.Proof.Gen.KernelIdeal
import proofs.«150679_g65627100283412_cont_sun_m_691_11_alg».proof.Proof.Gen.ReferenceIdeal
import proofs.«150679_g65627100283412_cont_sun_m_691_11_alg».proof.Proof.Gen.Pre_finite_inputs
import proofs.«150679_g65627100283412_cont_sun_m_691_11_alg».proof.Proof.RefSide
import proofs.«150679_g65627100283412_cont_sun_m_691_11_alg».proof.Proof.MatAlgebra
import proofs.«150679_g65627100283412_cont_sun_m_691_11_alg».proof.Proof.Finite

/-
  The two claims about the reference, given what the kernel computes.

  The reference runs and leaves its arguments unchanged: this is its run with the two results dropped.

  The kernel and the reference end with equal results. The kernel ends with
      latent = (adj * feat) * wenc,   recon = (adj * feat) * (wenc * (adj * wdec)),
  and the reference, run from arguments that agree with the kernel's, with
      latent = adj * (feat * wenc),   recon = (adj * (feat * wenc)) * (adj * wdec).
  The precondition says every argument entry is finite, that is a real number, and on real matrices the product is
  associative, so the two pairs of results are equal.
-/

noncomputable section

namespace Cert.Assemble

open Idealize.ShloMosaic Idealize.ShloMosaic.TcCoe Idealize.SL.Sem

/-- The reference runs and its argument arrays end unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- If the kernel ends with (adj * feat) * wenc and (adj * feat) * (wenc * (adj * wdec)) in its two results and its
    arguments unchanged, then kernel and reference, from arguments that agree and are finite, end with equal results. -/
theorem algebraic_of
    (hK : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v0_0) = Cert.Spec.latentK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v0_1) = Cert.Spec.reconK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m g m' g' hpre hagree
  refine ⟨fun c => Cert.Spec.latentK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.reconK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hK m g, ?_⟩
  refine (θ_run Cert.ReferenceIdeal.defs _ _).mono
    (fun _ h c => ⟨(h c).1.trans ?_, (h c).2.1.trans ?_, (h c).2.2⟩)
    (Cert.ReferenceIdeal.Value.run (F := Ideal) m' g')
  · obtain ⟨hf, ha, he, hd⟩ := Cert.Finite.isReal_of_fn _ _ _ _ (hpre c)
    rw [Cert.ReferenceIdeal.Read.val_main_v1_eq, Cert.RefSide.latent_ref,
      (hagree c).1, (hagree c).2.1, (hagree c).2.2.1]
    exact (Cert.Spec.latent_eq hf ha he).symm
  · obtain ⟨hf, ha, he, hd⟩ := Cert.Finite.isReal_of_fn _ _ _ _ (hpre c)
    rw [Cert.ReferenceIdeal.Read.val_main_v3_eq, Cert.RefSide.recon_ref,
      (hagree c).1, (hagree c).2.1, (hagree c).2.2.1, (hagree c).2.2.2]
    exact (Cert.Spec.recon_eq hf ha he hd).symm

end Cert.Assemble

end
-- ==== Proof.lean ====
/-
  The certificate: a fused graph-autoencoder kernel against its plain reference, over the extended reals.

  With feat (4096 x 128), adj (4096 x 4096), wenc (128 x 4096) and wdec (4096 x 128) the reference computes
      latent = adj * (feat * wenc),        recon = latent * (adj * wdec),
  two products through a 4096 x 4096 intermediate. The kernel uses that feat * wenc has rank at most 128: one pass
  over adj, 512 rows per grid point, computes adj * [feat | wdec] (kept in a scratch buffer, 512 rows per point),
  stores (adj * feat) * wenc as the point's block of latent, and at the last point stores
  (adj * feat) * (wenc * (adj * wdec)) as recon. The two sides differ only in how the matrix products are
  grouped, and on real entries the grouping does not matter: that is where the finiteness precondition is used
  (with an infinite entry a product of sums and the sum of products can differ).

  The frames: both kernel programs run their body under the pipeline with an invariant that tracks which rows of
  the scratch are already written (Proof/KBody.lean for the idealized program, the same text at the word-level
  program's namespace in Proof/KBodyBits.lean); the reference is a straight line of four host products.
  The idealization rewrote nothing, so there is nothing to preserve.
-/
import proofs.«150679_g65627100283412_cont_sun_m_691_11_alg».proof.Defs
import proofs.«150679_g65627100283412_cont_sun_m_691_11_alg».proof.Proof.Gen.Kernel
import proofs.«150679_g65627100283412_cont_sun_m_691_11_alg».proof.Proof.Gen.KernelIdeal
import proofs.«150679_g65627100283412_cont_sun_m_691_11_alg».proof.Proof.Gen.ReferenceIdeal
import proofs.«150679_g65627100283412_cont_sun_m_691_11_alg».proof.Proof.Gen.Pre_finite_inputs
import proofs.«150679_g65627100283412_cont_sun_m_691_11_alg».proof.Proof.KBodyBits
import proofs.«150679_g65627100283412_cont_sun_m_691_11_alg».proof.Proof.KNamed
import proofs.«150679_g65627100283412_cont_sun_m_691_11_alg».proof.Proof.Final
import proofs.«150679_g65627100283412_cont_sun_m_691_11_alg».proof.Proof.Assemble
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Body.frame (F := Bits) m ρ

/-- So does the idealized kernel. -/
theorem frame_ki : Cert.frame_KernelIdeal := fun m ρ _ => Cert.KernelIdeal.Body.frame (F := Ideal) m ρ

/-- The idealized kernel's run with its results as matrix products of the arguments: the first result's blocks
    tile the array, each block 512 rows of (adj * feat) * wenc; the second result is the last point's one block. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = Cert.Spec.latentK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v0_1) = Cert.Spec.reconK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
      ⟨(h c).1.trans (Cert.KernelIdeal.Final.latent_final m c (Cert.KernelIdeal.Body.dats m 0 c) (Cert.KernelIdeal.Body.after_3 m c)),
       (h c).2.1.trans (Cert.KernelIdeal.Final.recon_final m c (Cert.KernelIdeal.Body.dats m 0 c) (fun t _ => Cert.KernelIdeal.Body.after_4 m c t)),
       (h c).2.2⟩)
    (Cert.KernelIdeal.Body.run_named (F := Ideal) m g)

theorem claim : Cert.Claim := ⟨Cert.Kernel.Gen.facts, Cert.KernelIdeal.Gen.facts, Cert.ReferenceIdeal.Gen.facts, Cert.Pre_finite_inputs.Gen.facts,
  frame_k, frame_ki, Cert.Assemble.frame_ri, trivial, Cert.Assemble.algebraic_of kernel_run⟩

end Cert.Proof

end
